-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S_ : Shape := ⟨0, ![]⟩

class Facts : Prop where
  bcast_S_S50000x29x128 : S_.BroadcastsInDim S50000x29x128 (![] : Fin 0 → Fin S50000x29x128.rank)
  reducesTo_S50000x29x128_S_d0_1_2 : S50000x29x128.ReducesTo [0, 1, 2] S_
  h_S_ : 0 < S_.numel
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_
  bcast_S_S1536x768 : S_.BroadcastsInDim S1536x768 (![] : Fin 0 → Fin S1536x768.rank)
  reducesTo_S1536x768_S_d0_1 : S1536x768.ReducesTo [0, 1] S_
  bcast_S_S1280x640 : S_.BroadcastsInDim S1280x640 (![] : Fin 0 → Fin S1280x640.rank)
  reducesTo_S1280x640_S_d0_1 : S1280x640.ReducesTo [0, 1] S_

variable [Facts]

def fn_part1 {F : FTy → Type} [FloatOps F] (main_arg4 : FVec F S1280x640 .f32) (main_v13 : IVec S_ 1) (main_v16 : IVec S1536x768 1) : IVec S_ 1 :=
  let main_c_5 : IVec S_ 1 := constantI S_ 1 1#1
  let main_v17 : IVec S_ 1 := (fun x v => Host.reduce IntOp.andi x v reducesTo_S1536x768_S_d0_1 h_S_) main_v16 main_c_5
  let main_v18 : IVec S_ 1 := andi main_v13 main_v17
  let main_v19 : FVec F S1280x640 .f32 := Host.absf main_arg4
  let main_cst_6 : FVec F S_ .f32 := constant S_ .f32 0x7F800000#32
  let main_v20 : FVec F S1280x640 .f32 := broadcastInDim S1280x640 ![] bcast_S_S1280x640 main_cst_6
  let main_v21 : IVec S1280x640 1 := cmpf .olt main_v19 main_v20
  let main_c_7 : IVec S_ 1 := constantI S_ 1 1#1
  let main_v22 : IVec S_ 1 := (fun x v => Host.reduce IntOp.andi x v reducesTo_S1280x640_S_d0_1 h_S_) main_v21 main_c_7
  let main_v23 : IVec S_ 1 := andi main_v18 main_v22
  main_v23

def fn {F : FTy → Type} [FloatOps F] (main_arg0 : FVec F S50000x29x128 .f32) (main_arg1 : FVec F S896x896 .f32) (main_arg2 : FVec F S896 .f32) (main_arg3 : FVec F S1536x768 .f32) (main_arg4 : FVec F S1280x640 .f32) : IVec S_ 1 :=
  let main_v0 : FVec F S50000x29x128 .f32 := Host.absf main_arg0
  let main_cst : FVec F S_ .f32 := constant S_ .f32 0x7F800000#32
  let main_v1 : FVec F S50000x29x128 .f32 := broadcastInDim S50000x29x128 ![] bcast_S_S50000x29x128 main_cst
  let main_v2 : IVec S50000x29x128 1 := cmpf .olt main_v0 main_v1
  let main_c : IVec S_ 1 := constantI S_ 1 1#1
  let main_v3 : IVec S_ 1 := (fun x v => Host.reduce IntOp.andi x v reducesTo_S50000x29x128_S_d0_1_2 h_S_) main_v2 main_c
  let main_v4 : FVec F S896x896 .f32 := Host.absf main_arg1
  let main_cst_0 : FVec F S_ .f32 := constant S_ .f32 0x7F800000#32
  let main_v5 : FVec F S896x896 .f32 := broadcastInDim S896x896 ![] bcast_S_S896x896 main_cst_0
  let main_v6 : IVec S896x896 1 := cmpf .olt main_v4 main_v5
  let main_c_1 : IVec S_ 1 := constantI S_ 1 1#1
  let main_v7 : IVec S_ 1 := (fun x v => Host.reduce IntOp.andi x v reducesTo_S896x896_S_d0_1 h_S_) main_v6 main_c_1
  let main_v8 : IVec S_ 1 := andi main_v3 main_v7
  let main_v9 : FVec F S896 .f32 := Host.absf main_arg2
  let main_cst_2 : FVec F S_ .f32 := constant S_ .f32 0x7F800000#32
  let main_v10 : FVec F S896 .f32 := broadcastInDim S896 ![] bcast_S_S896 main_cst_2
  let main_v11 : IVec S896 1 := cmpf .olt main_v9 main_v10
  let main_c_3 : IVec S_ 1 := constantI S_ 1 1#1
  let main_v12 : IVec S_ 1 := (fun x v => Host.reduce IntOp.andi x v reducesTo_S896_S_d0 h_S_) main_v11 main_c_3
  let main_v13 : IVec S_ 1 := andi main_v8 main_v12
  let main_v14 : FVec F S1536x768 .f32 := Host.absf main_arg3
  let main_cst_4 : FVec F S_ .f32 := constant S_ .f32 0x7F800000#32
  let main_v15 : FVec F S1536x768 .f32 := broadcastInDim S1536x768 ![] bcast_S_S1536x768 main_cst_4
  let main_v16 : IVec S1536x768 1 := cmpf .olt main_v14 main_v15
  fn_part1 (F := F) main_arg4 main_v13 main_v16
-- ==== Kernel.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S50000x7x128 : Shape := ⟨3, ![50000, 7, 128]⟩
abbrev S50000x896 : Shape := ⟨2, ![50000, 896]⟩
abbrev S50000x6x128 : Shape := ⟨3, ![50000, 6, 128]⟩
abbrev S50000x768 : Shape := ⟨2, ![50000, 768]⟩
abbrev S50000x5x128 : Shape := ⟨3, ![50000, 5, 128]⟩
abbrev S50000x640 : Shape := ⟨2, ![50000, 640]⟩
abbrev S1x896 : Shape := ⟨2, ![1, 896]⟩
abbrev S768x1536 : Shape := ⟨2, ![768, 1536]⟩
abbrev S640x1280 : Shape := ⟨2, ![640, 1280]⟩
abbrev S50000x3712 : Shape := ⟨2, ![50000, 3712]⟩
abbrev S400x896 : Shape := ⟨2, ![400, 896]⟩
abbrev S400x768 : Shape := ⟨2, ![400, 768]⟩
abbrev S400x640 : Shape := ⟨2, ![400, 640]⟩
abbrev S400x3712 : Shape := ⟨2, ![400, 3712]⟩
abbrev S400x1536 : Shape := ⟨2, ![400, 1536]⟩
abbrev S400x1280 : Shape := ⟨2, ![400, 1280]⟩

abbrev nBuf : Space → Nat
  | .hbm => 29
  | .vmem => 16
  | .smem => 0
  | _ => 0

abbrev bufTy : (tb : Table) → Fin (tcTables nBuf tb) → BufTy
  | .hbm, ⟨0, _⟩ => ⟨S50000x29x128, .f32⟩
  | .hbm, ⟨1, _⟩ => ⟨S896x896, .f32⟩
  | .hbm, ⟨2, _⟩ => ⟨S896, .f32⟩
  | .hbm, ⟨3, _⟩ => ⟨S1536x768, .f32⟩
  | .hbm, ⟨4, _⟩ => ⟨S1280x640, .f32⟩
  | .hbm, ⟨5, _⟩ => ⟨S50000x7x128, .f32⟩
  | .hbm, ⟨6, _⟩ => ⟨S50000x896, .f32⟩
  | .hbm, ⟨7, _⟩ => ⟨S50000x896, .bf16⟩
  | .hbm, ⟨8, _⟩ => ⟨S50000x6x128, .f32⟩
  | .hbm, ⟨9, _⟩ => ⟨S50000x768, .f32⟩
  | .hbm, ⟨10, _⟩ => ⟨S50000x768, .bf16⟩
  | .hbm, ⟨11, _⟩ => ⟨S50000x6x128, .f32⟩
  | .hbm, ⟨12, _⟩ => ⟨S50000x768, .f32⟩
  | .hbm, ⟨13, _⟩ => ⟨S50000x768, .bf16⟩
  | .hbm, ⟨14, _⟩ => ⟨S50000x5x128, .f32⟩
  | .hbm, ⟨15, _⟩ => ⟨S50000x640, .f32⟩
  | .hbm, ⟨16, _⟩ => ⟨S50000x640, .bf16⟩
  | .hbm, ⟨17, _⟩ => ⟨S50000x5x128, .f32⟩
  | .hbm, ⟨18, _⟩ => ⟨S50000x640, .f32⟩
  | .hbm, ⟨19, _⟩ => ⟨S50000x640, .bf16⟩
  | .hbm, ⟨20, _⟩ => ⟨S896x896, .f32⟩
  | .hbm, ⟨21, _⟩ => ⟨S896x896, .bf16⟩
  | .hbm, ⟨22, _⟩ => ⟨S1x896, .f32⟩
  | .hbm, ⟨23, _⟩ => ⟨S768x1536, .f32⟩
  | .hbm, ⟨24, _⟩ => ⟨S768x1536, .bf16⟩
  | .hbm, ⟨25, _⟩ => ⟨S640x1280, .f32⟩
  | .hbm, ⟨26, _⟩ => ⟨S640x1280, .bf16⟩
  | .hbm, ⟨27, _⟩ => ⟨S50000x3712, .f32⟩
  | .hbm, ⟨28, _⟩ => ⟨S50000x29x128, .f32⟩
  | .local _ .vmem, ⟨0, _⟩ => ⟨S400x896, .bf16⟩
  | .local _ .vmem, ⟨1, _⟩ => ⟨S400x896, .bf16⟩
  | .local _ .vmem, ⟨2, _⟩ => ⟨S400x768, .bf16⟩
  | .local _ .vmem, ⟨3, _⟩ => ⟨S400x768, .bf16⟩
  | .local _ .vmem, ⟨4, _⟩ => ⟨S400x768, .bf16⟩
  | .local _ .vmem, ⟨5, _⟩ => ⟨S400x768, .bf16⟩
  | .local _ .vmem, ⟨6, _⟩ => ⟨S400x640, .bf16⟩
  | .local _ .vmem, ⟨7, _⟩ => ⟨S400x640, .bf16⟩
  | .local _ .vmem, ⟨8, _⟩ => ⟨S400x640, .bf16⟩
  | .local _ .vmem, ⟨9, _⟩ => ⟨S400x640, .bf16⟩
  | .local _ .vmem, ⟨10, _⟩ => ⟨S896x896, .bf16⟩
  | .local _ .vmem, ⟨11, _⟩ => ⟨S1x896, .f32⟩
  | .local _ .vmem, ⟨12, _⟩ => ⟨S768x1536, .bf16⟩
  | .local _ .vmem, ⟨13, _⟩ => ⟨S640x1280, .bf16⟩
  | .local _ .vmem, ⟨14, _⟩ => ⟨S400x3712, .f32⟩
  | .local _ .vmem, ⟨15, _⟩ => ⟨S400x3712, .f32⟩
  | _, _ => ⟨S50000x29x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S896x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S400x3712 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S50000x29x128_S50000x7x128_0_0_0 : S50000x29x128.Slices ![0, 0, 0] S50000x7x128
  shapeCasts_S50000x7x128_S50000x896 : S50000x7x128.ShapeCasts S50000x896
  bitsLt_bf16_f32 : FTy.bits .bf16 < FTy.bits .f32
  slices_S50000x29x128_S50000x6x128_0_7_0 : S50000x29x128.Slices ![0, 7, 0] S50000x6x128
  shapeCasts_S50000x6x128_S50000x768 : S50000x6x128.ShapeCasts S50000x768
  slices_S50000x29x128_S50000x6x128_0_13_0 : S50000x29x128.Slices ![0, 13, 0] S50000x6x128
  slices_S50000x29x128_S50000x5x128_0_19_0 : S50000x29x128.Slices ![0, 19, 0] S50000x5x128
  shapeCasts_S50000x5x128_S50000x640 : S50000x5x128.ShapeCasts S50000x640
  slices_S50000x29x128_S50000x5x128_0_24_0 : S50000x29x128.Slices ![0, 24, 0] S50000x5x128
  transposes_S896x896_S896x896_1_0 : S896x896.Transposes [1, 0] S896x896
  shapeCasts_S896_S1x896 : S896.ShapeCasts S1x896
  transposes_S1536x768_S768x1536_1_0 : S1536x768.Transposes [1, 0] S768x1536
  transposes_S1280x640_S640x1280_1_0 : S1280x640.Transposes [1, 0] S640x1280
  inb_S400x896_S400x896_0_0 : ∀ a, (![0, 0] : Fin 2 → Nat) a + S400x896.size a ≤ S400x896.size a
  h_S400x896 : 0 < S400x896.numel
  shapeCasts_S400x896_S400x896 : S400x896.ShapeCasts S400x896
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S400x896 : S1x896.Broadcasts S400x896
  inb_S400x768_S400x768_0_0 : ∀ a, (![0, 0] : Fin 2 → Nat) a + S400x768.size a ≤ S400x768.size a
  h_S400x768 : 0 < S400x768.numel
  shapeCasts_S400x768_S400x768 : S400x768.ShapeCasts S400x768
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  slices_S400x1536_o0_0_S400x768 : S400x1536.Slices ![0, 0] S400x768
  slices_S400x1536_o0_768_S400x768 : S400x1536.Slices ![0, 768] S400x768
  inb_S400x640_S400x640_0_0 : ∀ a, (![0, 0] : Fin 2 → Nat) a + S400x640.size a ≤ S400x640.size a
  h_S400x640 : 0 < S400x640.numel
  shapeCasts_S400x640_S400x640 : S400x640.ShapeCasts S400x640
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  slices_S400x1280_o0_0_S400x640 : S400x1280.Slices ![0, 0] S400x640
  slices_S400x1280_o0_640_S400x640 : S400x1280.Slices ![0, 640] S400x640
  inb_S400x3712_S400x896_0_0 : ∀ a, (![0, 0] : Fin 2 → Nat) a + S400x896.size a ≤ S400x3712.size a
  inb_S400x3712_S400x768_0_896 : ∀ a, (![0, 896] : Fin 2 → Nat) a + S400x768.size a ≤ S400x3712.size a
  inb_S400x3712_S400x768_0_1664 : ∀ a, (![0, 1664] : Fin 2 → Nat) a + S400x768.size a ≤ S400x3712.size a
  inb_S400x3712_S400x640_0_2432 : ∀ a, (![0, 2432] : Fin 2 → Nat) a + S400x640.size a ≤ S400x3712.size a
  inb_S400x3712_S400x640_0_3072 : ∀ a, (![0, 3072] : Fin 2 → Nat) a + S400x640.size a ≤ S400x3712.size a
  shapeCasts_S50000x3712_S50000x29x128 : S50000x3712.ShapeCasts S50000x29x128
  dot_S400x896_S896x896_S400x896_1_0_0_1_n_n_wf : DotDims.WF S400x896 S896x896 S400x896 [1] [0] [0] [1] [] []
  dot_S400x768_S768x1536_S400x1536_1_0_0_1_n_n_wf : DotDims.WF S400x768 S768x1536 S400x1536 [1] [0] [0] [1] [] []
  dot_S400x640_S640x1280_S400x1280_1_0_0_1_n_n_wf : DotDims.WF S400x640 S640x1280 S400x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x896.size a ≤ S50000x896.size a
  hwx0_0 : ∀ i : grid0.Coords, EltTy.bits .bf16 = 32 ∨ (Rect.block (s := S50000x896) S400x896.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x768.size a ≤ S50000x768.size a
  hwx0_1 : ∀ i : grid0.Coords, EltTy.bits .bf16 = 32 ∨ (Rect.block (s := S50000x768) S400x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x768.size a ≤ S50000x768.size a
  hwx0_2 : ∀ i : grid0.Coords, EltTy.bits .bf16 = 32 ∨ (Rect.block (s := S50000x768) S400x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x640.size a ≤ S50000x640.size a
  hwx0_3 : ∀ i : grid0.Coords, EltTy.bits .bf16 = 32 ∨ (Rect.block (s := S50000x640) S400x640.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x640.size a ≤ S50000x640.size a
  hwx0_4 : ∀ i : grid0.Coords, EltTy.bits .bf16 = 32 ∨ (Rect.block (s := S50000x640) S400x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x896.size a ≤ S896x896.size a
  hwx0_5 : ∀ i : grid0.Coords, EltTy.bits .bf16 = 32 ∨ (Rect.block (s := S896x896) S896x896.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x896.size a ≤ S1x896.size a
  hwx0_6 : ∀ i : grid0.Coords, EltTy.bits .f32 = 32 ∨ (Rect.block (s := S1x896) S1x896.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x1536.size a ≤ S768x1536.size a
  hwx0_7 : ∀ i : grid0.Coords, EltTy.bits .bf16 = 32 ∨ (Rect.block (s := S768x1536) S768x1536.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S640x1280.size a ≤ S640x1280.size a
  hwx0_8 : ∀ i : grid0.Coords, EltTy.bits .bf16 = 32 ∨ (Rect.block (s := S640x1280) S640x1280.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x3712.size a ≤ S50000x3712.size a
  hwx0_9 : ∀ i : grid0.Coords, EltTy.bits .f32 = 32 ∨ (Rect.block (s := S50000x3712) S400x3712.size (cc0_transform_9 i) (hinb0_9 i)).WholeWords (EltTy.packing .f32)

variable [Facts₀]

def dot_S400x896_S896x896_S400x896_1_0_0_1_n_n : DotDims S400x896 S896x896 S400x896 where
  lhsContracting := [1]
  rhsContracting := [0]
  lhsNonContracting := [0]
  rhsNonContracting := [1]
  lhsBatch := []
  rhsBatch := []
  wf := dot_S400x896_S896x896_S400x896_1_0_0_1_n_n_wf
def dot_S400x768_S768x1536_S400x1536_1_0_0_1_n_n : DotDims S400x768 S768x1536 S400x1536 where
  lhsContracting := [1]
  rhsContracting := [0]
  lhsNonContracting := [0]
  rhsNonContracting := [1]
  lhsBatch := []
  rhsBatch := []
  wf := dot_S400x768_S768x1536_S400x1536_1_0_0_1_n_n_wf
def dot_S400x640_S640x1280_S400x1280_1_0_0_1_n_n : DotDims S400x640 S640x1280 S400x1280 where
  lhsContracting := [1]
  rhsContracting := [0]
  lhsNonContracting := [0]
  rhsNonContracting := [1]
  lhsBatch := []
  rhsBatch := []
  wf := dot_S400x640_S640x1280_S400x1280_1_0_0_1_n_n_wf

abbrev win0_0 : Pipeline.Window sig grid0 :=
  Pipeline.Window.ofSpec (Memref.whole main_v2) S400x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S400x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S400x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S400x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S400x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S896x896.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S768x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S640x1280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S400x3712.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S50000x7x128 : Shape := ⟨3, ![50000, 7, 128]⟩
abbrev S50000x896 : Shape := ⟨2, ![50000, 896]⟩
abbrev S1x896 : Shape := ⟨2, ![1, 896]⟩
abbrev S50000x12x128 : Shape := ⟨3, ![50000, 12, 128]⟩
abbrev S50000x2x768 : Shape := ⟨3, ![50000, 2, 768]⟩
abbrev S50000x2x1536 : Shape := ⟨3, ![50000, 2, 1536]⟩
abbrev S50000x1x768 : Shape := ⟨3, ![50000, 1, 768]⟩
abbrev S50000x768 : Shape := ⟨2, ![50000, 768]⟩
abbrev S50000x6x128 : Shape := ⟨3, ![50000, 6, 128]⟩
abbrev S50000x10x128 : Shape := ⟨3, ![50000, 10, 128]⟩
abbrev S50000x2x640 : Shape := ⟨3, ![50000, 2, 640]⟩
abbrev S50000x2x1280 : Shape := ⟨3, ![50000, 2, 1280]⟩
abbrev S50000x1x640 : Shape := ⟨3, ![50000, 1, 640]⟩
abbrev S50000x640 : Shape := ⟨2, ![50000, 640]⟩
abbrev S50000x5x128 : Shape := ⟨3, ![50000, 5, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x29x128, .f32⟩
  | .hbm, ⟨1, _⟩ => ⟨S896x896, .f32⟩
  | .hbm, ⟨2, _⟩ => ⟨S896, .f32⟩
  | .hbm, ⟨3, _⟩ => ⟨S1536x768, .f32⟩
  | .hbm, ⟨4, _⟩ => ⟨S1280x640, .f32⟩
  | .hbm, ⟨5, _⟩ => ⟨S50000x7x128, .f32⟩
  | .hbm, ⟨6, _⟩ => ⟨S50000x896, .f32⟩
  | .hbm, ⟨7, _⟩ => ⟨S896x896, .f32⟩
  | .hbm, ⟨8, _⟩ => ⟨S50000x896, .f32⟩
  | .hbm, ⟨9, _⟩ => ⟨S1x896, .f32⟩
  | .hbm, ⟨10, _⟩ => ⟨S50000x896, .f32⟩
  | .hbm, ⟨11, _⟩ => ⟨S50000x896, .f32⟩
  | .hbm, ⟨12, _⟩ => ⟨S50000x7x128, .f32⟩
  | .hbm, ⟨13, _⟩ => ⟨S50000x12x128, .f32⟩
  | .hbm, ⟨14, _⟩ => ⟨S50000x2x768, .f32⟩
  | .hbm, ⟨15, _⟩ => ⟨S50000x2x1536, .f32⟩
  | .hbm, ⟨16, _⟩ => ⟨S50000x2x768, .f32⟩
  | .hbm, ⟨17, _⟩ => ⟨S50000x2x768, .f32⟩
  | .hbm, ⟨18, _⟩ => ⟨S50000x1x768, .f32⟩
  | .hbm, ⟨19, _⟩ => ⟨S50000x768, .f32⟩
  | .hbm, ⟨20, _⟩ => ⟨S50000x1x768, .f32⟩
  | .hbm, ⟨21, _⟩ => ⟨S50000x768, .f32⟩
  | .hbm, ⟨22, _⟩ => ⟨S50000x768, .f32⟩
  | .hbm, ⟨23, _⟩ => ⟨S50000x1x768, .f32⟩
  | .hbm, ⟨24, _⟩ => ⟨S50000x768, .f32⟩
  | .hbm, ⟨25, _⟩ => ⟨S50000x1x768, .f32⟩
  | .hbm, ⟨26, _⟩ => ⟨S50000x768, .f32⟩
  | .hbm, ⟨27, _⟩ => ⟨S50000x768, .f32⟩
  | .hbm, ⟨28, _⟩ => ⟨S50000x6x128, .f32⟩
  | .hbm, ⟨29, _⟩ => ⟨S50000x6x128, .f32⟩
  | .hbm, ⟨30, _⟩ => ⟨S50000x10x128, .f32⟩
  | .hbm, ⟨31, _⟩ => ⟨S50000x2x640, .f32⟩
  | .hbm, ⟨32, _⟩ => ⟨S50000x2x1280, .f32⟩
  | .hbm, ⟨33, _⟩ => ⟨S50000x2x640, .f32⟩
  | .hbm, ⟨34, _⟩ => ⟨S50000x2x640, .f32⟩
  | .hbm, ⟨35, _⟩ => ⟨S50000x1x640, .f32⟩
  | .hbm, ⟨36, _⟩ => ⟨S50000x640, .f32⟩
  | .hbm, ⟨37, _⟩ => ⟨S50000x1x640, .f32⟩
  | .hbm, ⟨38, _⟩ => ⟨S50000x640, .f32⟩
  | .hbm, ⟨39, _⟩ => ⟨S50000x640, .f32⟩
  | .hbm, ⟨40, _⟩ => ⟨S50000x1x640, .f32⟩
  | .hbm, ⟨41, _⟩ => ⟨S50000x640, .f32⟩
  | .hbm, ⟨42, _⟩ => ⟨S50000x1x640, .f32⟩
  | .hbm, ⟨43, _⟩ => ⟨S50000x640, .f32⟩
  | .hbm, ⟨44, _⟩ => ⟨S50000x640, .f32⟩
  | .hbm, ⟨45, _⟩ => ⟨S50000x5x128, .f32⟩
  | .hbm, ⟨46, _⟩ => ⟨S50000x5x128, .f32⟩
  | .hbm, ⟨47, _⟩ => ⟨S50000x29x128, .f32⟩
  | _, _ => ⟨S50000x29x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩

abbrev nD : Nat := 1
abbrev τ : Topo := Topo.v7x

variable {F : FTy → Type} [FloatOps F]

class Facts₀ : Prop where
  slices_S50000x29x128_S50000x7x128_0_0_0 : S50000x29x128.Slices ![0, 0, 0] S50000x7x128
  shapeCasts_S50000x7x128_S50000x896 : S50000x7x128.ShapeCasts S50000x896
  transposes_S896x896_S896x896_1_0 : S896x896.Transposes [1, 0] S896x896
  bcast_S896_S1x896_1 : S896.BroadcastsInDim S1x896 (![1] : Fin 1 → Fin S1x896.rank)
  bcast_S1x896_S50000x896_0_1 : S1x896.BroadcastsInDim S50000x896 (![0, 1] : Fin 2 → Fin S50000x896.rank)
  shapeCasts_S50000x896_S50000x7x128 : S50000x896.ShapeCasts S50000x7x128
  slices_S50000x29x128_S50000x12x128_0_7_0 : S50000x29x128.Slices ![0, 7, 0] S50000x12x128
  shapeCasts_S50000x12x128_S50000x2x768 : S50000x12x128.ShapeCasts S50000x2x768
  slices_S50000x2x1536_S50000x2x768_0_0_0 : S50000x2x1536.Slices ![0, 0, 0] S50000x2x768
  slices_S50000x2x1536_S50000x2x768_0_0_768 : S50000x2x1536.Slices ![0, 0, 768] S50000x2x768
  slices_S50000x2x768_S50000x1x768_0_0_0 : S50000x2x768.Slices ![0, 0, 0] S50000x1x768
  shapeCasts_S50000x1x768_S50000x768 : S50000x1x768.ShapeCasts S50000x768
  slices_S50000x2x768_S50000x1x768_0_1_0 : S50000x2x768.Slices ![0, 1, 0] S50000x1x768
  shapeCasts_S50000x768_S50000x6x128 : S50000x768.ShapeCasts S50000x6x128
  slices_S50000x29x128_S50000x10x128_0_19_0 : S50000x29x128.Slices ![0, 19, 0] S50000x10x128
  shapeCasts_S50000x10x128_S50000x2x640 : S50000x10x128.ShapeCasts S50000x2x640
  slices_S50000x2x1280_S50000x2x640_0_0_0 : S50000x2x1280.Slices ![0, 0, 0] S50000x2x640
  slices_S50000x2x1280_S50000x2x640_0_0_640 : S50000x2x1280.Slices ![0, 0, 640] S50000x2x640
  slices_S50000x2x640_S50000x1x640_0_0_0 : S50000x2x640.Slices ![0, 0, 0] S50000x1x640
  shapeCasts_S50000x1x640_S50000x640 : S50000x1x640.ShapeCasts S50000x640
  slices_S50000x2x640_S50000x1x640_0_1_0 : S50000x2x640.Slices ![0, 1, 0] S50000x1x640
  shapeCasts_S50000x640_S50000x5x128 : S50000x640.ShapeCasts S50000x5x128
  concatenates_S50000x7x128_S50000x6x128_S50000x6x128_S50000x5x128_S50000x5x128_S50000x29x128_d1 : Shape.Concatenates [S50000x7x128, S50000x6x128, S50000x6x128, S50000x5x128, S50000x5x128] S50000x29x128 1
  dot_S50000x896_S896x896_S50000x896_1_0_0_1_n_n_wf : DotDims.WF S50000x896 S896x896 S50000x896 [1] [0] [0] [1] [] []
  dot_S50000x2x768_S1536x768_S50000x2x1536_2_1_01_0_n_n_wf : DotDims.WF S50000x2x768 S1536x768 S50000x2x1536 [2] [1] [0, 1] [0] [] []
  dot_S50000x2x640_S1280x640_S50000x2x1280_2_1_01_0_n_n_wf : DotDims.WF S50000x2x640 S1280x640 S50000x2x1280 [2] [1] [0, 1] [0] [] []

variable [Facts₀]

def dot_S50000x896_S896x896_S50000x896_1_0_0_1_n_n : DotDims S50000x896 S896x896 S50000x896 where
  lhsContracting := [1]
  rhsContracting := [0]
  lhsNonContracting := [0]
  rhsNonContracting := [1]
  lhsBatch := []
  rhsBatch := []
  wf := dot_S50000x896_S896x896_S50000x896_1_0_0_1_n_n_wf
def dot_S50000x2x768_S1536x768_S50000x2x1536_2_1_01_0_n_n : DotDims S50000x2x768 S1536x768 S50000x2x1536 where
  lhsContracting := [2]
  rhsContracting := [1]
  lhsNonContracting := [0, 1]
  rhsNonContracting := [0]
  lhsBatch := []
  rhsBatch := []
  wf := dot_S50000x2x768_S1536x768_S50000x2x1536_2_1_01_0_n_n_wf
def dot_S50000x2x640_S1280x640_S50000x2x1280_2_1_01_0_n_n : DotDims S50000x2x640 S1280x640 S50000x2x1280 where
  lhsContracting := [2]
  rhsContracting := [1]
  lhsNonContracting := [0, 1]
  rhsNonContracting := [0]
  lhsBatch := []
  rhsBatch := []
  wf := dot_S50000x2x640_S1280x640_S50000x2x1280_2_1_01_0_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Payload.lean ====
import proofs.«133903_j42305427866205_1_alg».proof.Proof.Gen.KernelIdeal.Frame
import proofs.«133903_j42305427866205_1_alg».proof.Proof.LibPlainDot
import Idealize.ShloMosaic.Lib.Pipeline.Value
import Idealize.ShloMosaic.Lib.ValueIdx
import Idealize.ShloMosaic.Lib.ValueLayout
import Idealize.ShloMosaic.Lib.Tactic

/-!
  What one grid step of the kernel leaves in its output block, over the extended reals.

  The step loads five edge blocks (400 rows each: `x0` of 896 numbers, `x1`, `x2` of 768, `x3`, `x4` of 640), the three
  transposed weights (`x5` [896, 896], `x7` [768, 1536], `x8` [640, 1280]) and the bias row `x6`, and stores five column
  groups of its [400, 3712] output block. Entry (p, q) of each group is a plain sum of products:

    columns    0 + q :  (∑ k, x0[p,k] · x5[k,q]) + x6[0,q]
    columns  896 + q :  (∑ k, x1[p,k] · x7[k,q]) − (∑ k, x2[p,k] · x7[k,768+q])
    columns 1664 + q :  (∑ k, x2[p,k] · x7[k,q]) + (∑ k, x1[p,k] · x7[k,768+q])
    columns 2432 + q :  (∑ k, x3[p,k] · x8[k,q]) − (∑ k, x4[p,k] · x8[k,640+q])
    columns 3072 + q :  (∑ k, x4[p,k] · x8[k,q]) + (∑ k, x3[p,k] · x8[k,640+q])

  (a matrix product into a zero accumulator is the sum of products; a shape cast to the same shape and a change of
  float format are the identity; a column slice reads at the shifted column; the bias row is broadcast down the rows).
-/

set_option maxRecDepth 16384

open scoped BigOperators

noncomputable section

namespace Cert.KernelIdeal.Payload

open Cert.KernelIdeal Cert.KernelIdeal.Gen Idealize.ShloMosaic Idealize.ShloMosaic.TcCoe Idealize.ShloMosaic.Tactic
open Idealize.SL.Sem Idealize.ShloMosaic.ValueIdx

theorem hz : (![0, 0] : Fin 2 → Nat) = fun _ => 0 := funext fun a => by fin_cases a <;> rfl

/-! ## The three matrix products at an entry -/

theorem mm0 (l : S400x896.Idx → EReal) (r : S896x896.Idx → EReal) (p : Fin 400) (q : Fin 896) :
    matmul (F := Ideal) (φ₁ := .bf16) (φ₂ := .bf16) dot_S400x896_S896x896_S400x896_1_0_0_1_n_n none l r
        (constant (F := Ideal) S400x896 .f32 0x00000000#32) (ix2 p q)
      = ∑ k : Fin 896, l (ix2 p k) * r (ix2 k q) :=
  Cert.Lib.PlainDot.matmul_zero_apply dot_S400x896_S896x896_S400x896_1_0_0_1_n_n rfl rfl rfl rfl rfl rfl none l r p q

theorem mm1 (l : S400x768.Idx → EReal) (r : S768x1536.Idx → EReal) (p : Fin 400) (q : Fin 1536) :
    matmul (F := Ideal) (φ₁ := .bf16) (φ₂ := .bf16) dot_S400x768_S768x1536_S400x1536_1_0_0_1_n_n none l r
        (constant (F := Ideal) S400x1536 .f32 0x00000000#32) (ix2 p q)
      = ∑ k : Fin 768, l (ix2 p k) * r (ix2 k q) :=
  Cert.Lib.PlainDot.matmul_zero_apply dot_S400x768_S768x1536_S400x1536_1_0_0_1_n_n rfl rfl rfl rfl rfl rfl none l r p q

theorem mm2 (l : S400x640.Idx → EReal) (r : S640x1280.Idx → EReal) (p : Fin 400) (q : Fin 1280) :
    matmul (F := Ideal) (φ₁ := .bf16) (φ₂ := .bf16) dot_S400x640_S640x1280_S400x1280_1_0_0_1_n_n none l r
        (constant (F := Ideal) S400x1280 .f32 0x00000000#32) (ix2 p q)
      = ∑ k : Fin 640, l (ix2 p k) * r (ix2 k q) :=
  Cert.Lib.PlainDot.matmul_zero_apply dot_S400x640_S640x1280_S400x1280_1_0_0_1_n_n rfl rfl rfl rfl rfl rfl none l r p q

/-! ## The five stored values at an entry -/

/-- Columns 0‥895: the product with the first weight, plus the bias row. -/
theorem pay4_apply (x0 : S400x896.Idx → EReal) (x5 : S896x896.Idx → EReal) (x6 : S1x896.Idx → EReal)
    (p : Fin 400) (q : Fin 896) :
    k0_pay4 (F := Ideal) x0 x5 x6 (ix2 p q)
      = (∑ k : Fin 896, x0 (ix2 p k) * x5 (ix2 k q)) + x6 (ix2 (0 : Fin 1) q) := by
  unfold k0_pay4
  rw [addf_apply, shapeCast_self, shapeCast_self, shapeCast_self, mm0, broadcastTo_1b_ab_apply]

/-- Columns 896‥1663: the real product's first half minus the imaginary product's second half. -/
theorem pay7_apply (x1 x2 : S400x768.Idx → EReal) (x7 x7' : S768x1536.Idx → EReal) (p : Fin 400) (q : Fin 768) :
    k0_pay7 (F := Ideal) x1 x7 x2 x7' (ix2 p q)
      = (∑ k : Fin 768, x1 (ix2 p k) * x7 (ix2 k ⟨q.val, by have := q.isLt; omega⟩))
        - (∑ k : Fin 768, x2 (ix2 p k) * x7' (ix2 k ⟨768 + q.val, by have := q.isLt; omega⟩)) := by
  unfold k0_pay7 k0_pay5 k0_pay6
  dsimp only
  rw [subf_apply]
  refine congrArg₂ _ ?_ ?_
  · refine (slice2_axis1_apply 0 _ slices_S400x1536_o0_0_S400x768 p q ⟨q.val, by have := q.isLt; omega⟩ (Nat.zero_add _).symm).trans ?_
    rw [shapeCast_self, shapeCast_self]
    exact mm1 x1 x7 p _
  · refine (slice2_axis1_apply 768 _ slices_S400x1536_o0_768_S400x768 p q ⟨768 + q.val, by have := q.isLt; omega⟩ rfl).trans ?_
    rw [shapeCast_self, shapeCast_self]
    exact mm1 x2 x7' p _

/-- Columns 1664‥2431: the imaginary product's first half plus the real product's second half. -/
theorem pay8_apply (x1 x2 : S400x768.Idx → EReal) (x7 x7' : S768x1536.Idx → EReal) (p : Fin 400) (q : Fin 768) :
    k0_pay8 (F := Ideal) x1 x7 x2 x7' (ix2 p q)
      = (∑ k : Fin 768, x2 (ix2 p k) * x7' (ix2 k ⟨q.val, by have := q.isLt; omega⟩))
        + (∑ k : Fin 768, x1 (ix2 p k) * x7 (ix2 k ⟨768 + q.val, by have := q.isLt; omega⟩)) := by
  unfold k0_pay8 k0_pay5 k0_pay6
  dsimp only
  rw [addf_apply]
  refine congrArg₂ _ ?_ ?_
  · refine (slice2_axis1_apply 0 _ slices_S400x1536_o0_0_S400x768 p q ⟨q.val, by have := q.isLt; omega⟩ (Nat.zero_add _).symm).trans ?_
    rw [shapeCast_self, shapeCast_self]
    exact mm1 x2 x7' p _
  · refine (slice2_axis1_apply 768 _ slices_S400x1536_o0_768_S400x768 p q ⟨768 + q.val, by have := q.isLt; omega⟩ rfl).trans ?_
    rw [shapeCast_self, shapeCast_self]
    exact mm1 x1 x7 p _

/-- Columns 2432‥3071: the same as columns 896‥1663 with the last two edge blocks and the third weight. -/
theorem pay2_apply (x3 x4 : S400x640.Idx → EReal) (x8 x8' : S640x1280.Idx → EReal) (p : Fin 400) (q : Fin 640) :
    k0_pay2 (F := Ideal) (k0_pay9 (F := Ideal) x3 x8) (k0_pay10 (F := Ideal) x4) x8' (ix2 p q)
      = (∑ k : Fin 640, x3 (ix2 p k) * x8 (ix2 k ⟨q.val, by have := q.isLt; omega⟩))
        - (∑ k : Fin 640, x4 (ix2 p k) * x8' (ix2 k ⟨640 + q.val, by have := q.isLt; omega⟩)) := by
  unfold k0_pay2 k0_pay1 k0_pay9 k0_pay10
  dsimp only
  rw [subf_apply]
  refine congrArg₂ _ ?_ ?_
  · refine (slice2_axis1_apply 0 _ slices_S400x1280_o0_0_S400x640 p q ⟨q.val, by have := q.isLt; omega⟩ (Nat.zero_add _).symm).trans ?_
    rw [shapeCast_self, shapeCast_self]
    exact mm2 x3 x8 p _
  · refine (slice2_axis1_apply 640 _ slices_S400x1280_o0_640_S400x640 p q ⟨640 + q.val, by have := q.isLt; omega⟩ rfl).trans ?_
    rw [shapeCast_self, shapeCast_self]
    exact mm2 x4 x8' p _

/-- Columns 3072‥3711: the same as columns 1664‥2431 with the last two edge blocks and the third weight. -/
theorem pay3_apply (x3 x4 : S400x640.Idx → EReal) (x8 x8' : S640x1280.Idx → EReal) (p : Fin 400) (q : Fin 640) :
    k0_pay3 (F := Ideal) (k0_pay9 (F := Ideal) x3 x8) (k0_pay10 (F := Ideal) x4) x8' (ix2 p q)
      = (∑ k : Fin 640, x4 (ix2 p k) * x8' (ix2 k ⟨q.val, by have := q.isLt; omega⟩))
        + (∑ k : Fin 640, x3 (ix2 p k) * x8 (ix2 k ⟨640 + q.val, by have := q.isLt; omega⟩)) := by
  unfold k0_pay3 k0_pay1 k0_pay9 k0_pay10
  dsimp only
  rw [addf_apply]
  refine congrArg₂ _ ?_ ?_
  · refine (slice2_axis1_apply 0 _ slices_S400x1280_o0_0_S400x640 p q ⟨q.val, by have := q.isLt; omega⟩ (Nat.zero_add _).symm).trans ?_
    rw [shapeCast_self, shapeCast_self]
    exact mm2 x4 x8' p _
  · refine (slice2_axis1_apply 640 _ slices_S400x1280_o0_640_S400x640 p q ⟨640 + q.val, by have := q.isLt; omega⟩ rfl).trans ?_
    rw [shapeCast_self, shapeCast_self]
    exact mm2 x3 x8 p _

/-! ## The output block is its five stores -/

/-- What a step leaves in the output block: the five column groups, each at its payload of the loaded blocks. -/
theorem out_canon (c : Dev nD) (i : grid0.Coords) (arg1 : Memref sig .tc .vmem S400x896 .bf16) (harg1 : arg1.IsWhole) (arg2 : Memref sig .tc .vmem S400x768 .bf16) (harg2 : arg2.IsWhole) (arg3 : Memref sig .tc .vmem S400x768 .bf16) (harg3 : arg3.IsWhole) (arg4 : Memref sig .tc .vmem S400x640 .bf16) (harg4 : arg4.IsWhole) (arg5 : Memref sig .tc .vmem S400x640 .bf16) (harg5 : arg5.IsWhole) (arg6 : Memref sig .tc .vmem S896x896 .bf16) (harg6 : arg6.IsWhole) (arg7 : Memref sig .tc .vmem S1x896 .f32) (harg7 : arg7.IsWhole) (arg8 : Memref sig .tc .vmem S768x1536 .bf16) (harg8 : arg8.IsWhole) (arg9 : Memref sig .tc .vmem S640x1280 .bf16) (harg9 : arg9.IsWhole) (arg10 : Memref sig .tc .vmem S400x3712 .f32) (harg10 : arg10.IsWhole)
    (x0 : Vec Ideal S400x896 .bf16) (x1 : Vec Ideal S400x768 .bf16) (x2 : Vec Ideal S400x768 .bf16) (x3 : Vec Ideal S400x640 .bf16) (x4 : Vec Ideal S400x640 .bf16) (x5 : Vec Ideal S896x896 .bf16) (x6 : Vec Ideal S1x896 .f32) (x7 : Vec Ideal S768x1536 .bf16) (x8 : Vec Ideal S640x1280 .bf16) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8
      = View.canon
          [⟨Rect.unit ![0, 3072] ![400, 640] inb_S400x3712_S400x640_0_3072, k0_pay3 (k0_pay9 x3 x8) (k0_pay10 x4) x8⟩,
           ⟨Rect.unit ![0, 2432] ![400, 640] inb_S400x3712_S400x640_0_2432, k0_pay2 (k0_pay9 x3 x8) (k0_pay10 x4) x8⟩,
           ⟨Rect.unit ![0, 1664] ![400, 768] inb_S400x3712_S400x768_0_1664, k0_pay8 x1 x7 x2 x7⟩,
           ⟨Rect.unit ![0, 896] ![400, 768] inb_S400x3712_S400x768_0_896, k0_pay7 x1 x7 x2 x7⟩,
           ⟨Rect.unit ![0, 0] ![400, 896] inb_S400x3712_S400x896_0_0, k0_pay4 x0 x5 x6⟩] := by
  unfold out0_A_9
  rw [View.read_writes_junk_eq_canon]
  unfold kernelRun0_A
  dsimp only
  sl_unfold_words
  simp only [View.readAt_eq_ld, harg1.read_unread, harg2.read_unread, harg3.read_unread, harg4.read_unread,
    harg5.read_unread, harg6.read_unread, harg7.read_unread, harg8.read_unread, harg9.read_unread,
    View.ld_unit_zero (S := S400x896) hz, View.ld_unit_zero (S := S400x768) hz, View.ld_unit_zero (S := S400x640) hz,
    View.ld_unit_zero (S := S896x896) hz, View.ld_unit_zero (S := S1x896) hz, View.ld_unit_zero (S := S768x1536) hz,
    View.ld_unit_zero (S := S640x1280) hz]

end Cert.KernelIdeal.Payload

end
-- ==== Proof.Spec.lean ====
import Idealize.ShloMosaic.PureOps.Ideal
import Idealize.ShloMosaic.Lib.ValueIdx

/-!
  The function both programs compute, over the extended reals.

  An edge `e` carries 29 components of 128 numbers each, `x[e, n, c]`. Read `K` consecutive numbers of edge `e`
  starting at component `o` as one row (a "slab"): entry `k` of it is `x[e, o + k / 128, k % 128]`.

  * m = 0: the slab of components 0‥6 (896 numbers) goes through `W0` with the bias:
    `y0[e, j] = (∑ k, slab₀[e, k] · W0[j, k]) + b0[j]`, 896 columns.
  * m = 1: the real slab (components 7‥12) and the imaginary slab (components 13‥18), 768 numbers each, both go
    through the SAME `W1` (1536 rows): with `lin1 o [e, j] = ∑ k, slab_o[e, k] · W1[j, k]`,
    `pos1[e, q] = lin1 7 [e, q] − lin1 13 [e, 768 + q]` and `neg1[e, q] = lin1 13 [e, q] + lin1 7 [e, 768 + q]`.
  * m = 2: the same with components 19‥23 and 24‥28 (640 numbers each) and `W2` (1280 rows).

  Laid side by side these are one row of 3712 numbers per edge (`flat`): columns 0‥895 hold `y0`, 896‥1663 `pos1`,
  1664‥2431 `neg1`, 2432‥3071 `pos2`, 3072‥3711 `neg2`; the result is that row cut back into 29 components of 128
  (`result[e, n, c] = flat[e, 128 n + c]`).
-/

open scoped BigOperators

noncomputable section

namespace Cert.Spec

open Idealize.ShloMosaic Idealize.ShloMosaic.ValueIdx

abbrev SX : Shape := ⟨3, ![50000, 29, 128]⟩
abbrev SW0 : Shape := ⟨2, ![896, 896]⟩
abbrev SB0 : Shape := ⟨1, ![896]⟩
abbrev SW1 : Shape := ⟨2, ![1536, 768]⟩
abbrev SW2 : Shape := ⟨2, ![1280, 640]⟩

section
variable (x : SX.Idx → EReal) (W0 : SW0.Idx → EReal) (b0 : SB0.Idx → EReal) (W1 : SW1.Idx → EReal)
  (W2 : SW2.Idx → EReal)

/-- Entry `k` of the slab of `K` consecutive numbers of edge `e` that starts at component `o`. -/
def slab (o K : Nat) (hK : o * 128 + K ≤ 29 * 128) (e : Fin 50000) (k : Fin K) : EReal :=
  x (ix3 e ⟨o + k.val / 128, by have := k.isLt; omega⟩ ⟨k.val % 128, Nat.mod_lt _ (by omega)⟩)

/-- The m = 0 block: the first 896 numbers of the edge through `W0`, plus the bias. -/
def y0 (e : Fin 50000) (j : Fin 896) : EReal :=
  (∑ k : Fin 896, slab x 0 896 (by omega) e k * W0 (ix2 j k)) + b0 (ix1 j)

/-- Row `j` of `W1` against the 768-number slab that starts at component `o`. -/
def lin1 (o : Nat) (ho : o * 128 + 768 ≤ 29 * 128) (e : Fin 50000) (j : Fin 1536) : EReal :=
  ∑ k : Fin 768, slab x o 768 ho e k * W1 (ix2 j k)

/-- Row `j` of `W2` against the 640-number slab that starts at component `o`. -/
def lin2 (o : Nat) (ho : o * 128 + 640 ≤ 29 * 128) (e : Fin 50000) (j : Fin 1280) : EReal :=
  ∑ k : Fin 640, slab x o 640 ho e k * W2 (ix2 j k)

def pos1 (e : Fin 50000) (q : Fin 768) : EReal :=
  lin1 x W1 7 (by omega) e ⟨q.val, by have := q.isLt; omega⟩
    - lin1 x W1 13 (by omega) e ⟨768 + q.val, by have := q.isLt; omega⟩

def neg1 (e : Fin 50000) (q : Fin 768) : EReal :=
  lin1 x W1 13 (by omega) e ⟨q.val, by have := q.isLt; omega⟩
    + lin1 x W1 7 (by omega) e ⟨768 + q.val, by have := q.isLt; omega⟩

def pos2 (e : Fin 50000) (q : Fin 640) : EReal :=
  lin2 x W2 19 (by omega) e ⟨q.val, by have := q.isLt; omega⟩
    - lin2 x W2 24 (by omega) e ⟨640 + q.val, by have := q.isLt; omega⟩

def neg2 (e : Fin 50000) (q : Fin 640) : EReal :=
  lin2 x W2 24 (by omega) e ⟨q.val, by have := q.isLt; omega⟩
    + lin2 x W2 19 (by omega) e ⟨640 + q.val, by have := q.isLt; omega⟩

/-- One edge's whole output row: the five blocks side by side. -/
def flat (e : Fin 50000) (j : Fin 3712) : EReal :=
  if h0 : j.val < 896 then y0 x W0 b0 e ⟨j.val, h0⟩
  else if h1 : j.val < 1664 then pos1 x W1 e ⟨j.val - 896, by omega⟩
  else if h2 : j.val < 2432 then neg1 x W1 e ⟨j.val - 1664, by omega⟩
  else if h3 : j.val < 3072 then pos2 x W2 e ⟨j.val - 2432, by omega⟩
  else neg2 x W2 e ⟨j.val - 3072, by have := j.isLt; omega⟩

theorem flat_y0 (e : Fin 50000) (j : Fin 3712) (q : Fin 896) (hj : j.val = q.val) :
    flat x W0 b0 W1 W2 e j = y0 x W0 b0 e q := by
  have hq := q.isLt
  unfold flat
  rw [dif_pos (by omega)]
  exact congrArg (y0 x W0 b0 e) (Fin.ext hj)

theorem flat_pos1 (e : Fin 50000) (j : Fin 3712) (q : Fin 768) (hj : j.val = 896 + q.val) :
    flat x W0 b0 W1 W2 e j = pos1 x W1 e q := by
  have hq := q.isLt
  unfold flat
  rw [dif_neg (by omega), dif_pos (by omega)]
  exact congrArg (pos1 x W1 e) (Fin.ext (by show j.val - 896 = q.val; omega))

theorem flat_neg1 (e : Fin 50000) (j : Fin 3712) (q : Fin 768) (hj : j.val = 1664 + q.val) :
    flat x W0 b0 W1 W2 e j = neg1 x W1 e q := by
  have hq := q.isLt
  unfold flat
  rw [dif_neg (by omega), dif_neg (by omega), dif_pos (by omega)]
  exact congrArg (neg1 x W1 e) (Fin.ext (by show j.val - 1664 = q.val; omega))

theorem flat_pos2 (e : Fin 50000) (j : Fin 3712) (q : Fin 640) (hj : j.val = 2432 + q.val) :
    flat x W0 b0 W1 W2 e j = pos2 x W2 e q := by
  have hq := q.isLt
  unfold flat
  rw [dif_neg (by omega), dif_neg (by omega), dif_neg (by omega), dif_pos (by omega)]
  exact congrArg (pos2 x W2 e) (Fin.ext (by show j.val - 2432 = q.val; omega))

theorem flat_neg2 (e : Fin 50000) (j : Fin 3712) (q : Fin 640) (hj : j.val = 3072 + q.val) :
    flat x W0 b0 W1 W2 e j = neg2 x W2 e q := by
  have hq := q.isLt
  unfold flat
  rw [dif_neg (by omega), dif_neg (by omega), dif_neg (by omega), dif_neg (by omega)]
  exact congrArg (neg2 x W2 e) (Fin.ext (by show j.val - 3072 = q.val; omega))

/-- The output rows as one [50000, 3712] array. -/
def flatArr : (⟨2, ![50000, 3712]⟩ : Shape).Idx → EReal := fun i => flat x W0 b0 W1 W2 (i 0) (i 1)

/-- The result: each edge's row cut back into 29 components of 128. -/
def result : SX.Idx → EReal := fun i =>
  flat x W0 b0 W1 W2 (i 0) ⟨(i 1).val * 128 + (i 2).val, by
    have h1 : (i 1).val < 29 := (i 1).isLt
    have h2 : (i 2).val < 128 := (i 2).isLt
    omega⟩

end

end Cert.Spec

end
-- ==== Proof.HostIn.lean ====
import proofs.«133903_j42305427866205_1_alg».proof.Proof.Gen.KernelIdeal.Frame
import proofs.«133903_j42305427866205_1_alg».proof.Proof.Spec
import Idealize.ShloMosaic.Lib.Pipeline.Value
import Idealize.ShloMosaic.Lib.ValueIdx
import Idealize.ShloMosaic.Lib.ValueLayout
import Idealize.ShloMosaic.Lib.StableHlo.Run

/-!
  What the nine operand arrays hold when the region is entered, read at an index.

  Each of the five edge-tiled operands is a run of whole components of `x` (components `o ‥ o + n - 1`), flattened
  to one row of `n · 128` numbers per edge: entry `k` of the row is `x[e, o + k / 128, k % 128]`, because position
  `k = 128 · (k / 128) + k % 128` of the row is position `(k / 128, k % 128)` of the `[n, 128]` block in row-major
  order. The three weight operands are the weights transposed, and the bias operand is the bias as a single row.
  Narrowing a number to a shorter float format changes nothing over the extended reals.
-/

noncomputable section

namespace Cert.KernelIdeal.HostIn

open Cert.KernelIdeal Cert.KernelIdeal.Gen Idealize.ShloMosaic Idealize.ShloMosaic.TcCoe Idealize.SL.Sem
open Idealize.ShloMosaic.ValueIdx

/-- Components `o ‥ o + n - 1` of every edge, flattened to rows of `K = n · 128` numbers, read at `(e, k)`:
    the row-major position `(e · n + k / 128) · 128 + k % 128` of the cut array equals `e · K + k`, and the cut
    shifts the component by `o`. -/
theorem slab_read {n K : Nat} (o : Nat) (x : Cert.Spec.SX.Idx → EReal)
    (hs : (⟨3, ![50000, 29, 128]⟩ : Shape).Slices ![0, o, 0] ⟨3, ![50000, n, 128]⟩)
    (hc : (⟨3, ![50000, n, 128]⟩ : Shape).ShapeCasts ⟨2, ![50000, K]⟩)
    (hK : K = n * 128) (hb : o * 128 + K ≤ 29 * 128) (e : Fin 50000) (k : Fin K) :
    shapeCast ⟨2, ![50000, K]⟩ (extractStridedSlice ⟨3, ![50000, n, 128]⟩ ![0, o, 0] x hs) hc (ix2 e k)
      = Cert.Spec.slab x o K hb e k := by
  have hk : k.val < n * 128 := by have := k.isLt; omega
  have hq : k.val / 128 < n := by omega
  have hr : k.val % 128 < 128 := Nat.mod_lt _ (by omega)
  refine (shapeCast_apply _ hc (ix2 e k) (ix3 e ⟨k.val / 128, hq⟩ ⟨k.val % 128, hr⟩) ?_).trans ?_
  · rw [Shape.rowMajor_val_three, Shape.rowMajor_val_two]
    show (e.val * n + k.val / 128) * 128 + k.val % 128 = e.val * K + k.val
    have hKe : e.val * K = e.val * n * 128 := by rw [hK, Nat.mul_assoc]
    omega
  · exact slice3_axis1_apply o x hs e ⟨k.val / 128, hq⟩ ⟨k.val % 128, hr⟩ ⟨o + k.val / 128, by omega⟩ rfl

variable (m : (ℓ : Loc nD τ sig) → Buf (Elt Ideal) ℓ)

/-! ## Each operand array as a term over the arguments -/

theorem V_v2_term (c : Dev nD) :
    @Eq (S50000x896.Idx → EReal) (V m c main_v2) <| truncf (F := Ideal) .bf16 (shapeCast S50000x896 (extractStridedSlice S50000x7x128 ![0, 0, 0] (m ((c : Thread nD τ).loc main_arg0)) slices_S50000x29x128_S50000x7x128_0_0_0) shapeCasts_S50000x7x128_S50000x896) bitsLt_bf16_f32 := by
  show StableHlo.after hostOps0 (fun b => m (c, b)) (Proc.devRef .tc main_v2) = _
  after_results
  rfl

theorem V_v5_term (c : Dev nD) :
    @Eq (S50000x768.Idx → EReal) (V m c main_v5) <| truncf (F := Ideal) .bf16 (shapeCast S50000x768 (extractStridedSlice S50000x6x128 ![0, 7, 0] (m ((c : Thread nD τ).loc main_arg0)) slices_S50000x29x128_S50000x6x128_0_7_0) shapeCasts_S50000x6x128_S50000x768) bitsLt_bf16_f32 := by
  show StableHlo.after hostOps0 (fun b => m (c, b)) (Proc.devRef .tc main_v5) = _
  after_results
  rfl

theorem V_v8_term (c : Dev nD) :
    @Eq (S50000x768.Idx → EReal) (V m c main_v8) <| truncf (F := Ideal) .bf16 (shapeCast S50000x768 (extractStridedSlice S50000x6x128 ![0, 13, 0] (m ((c : Thread nD τ).loc main_arg0)) slices_S50000x29x128_S50000x6x128_0_13_0) shapeCasts_S50000x6x128_S50000x768) bitsLt_bf16_f32 := by
  show StableHlo.after hostOps0 (fun b => m (c, b)) (Proc.devRef .tc main_v8) = _
  after_results
  rfl

theorem V_v11_term (c : Dev nD) :
    @Eq (S50000x640.Idx → EReal) (V m c main_v11) <| truncf (F := Ideal) .bf16 (shapeCast S50000x640 (extractStridedSlice S50000x5x128 ![0, 19, 0] (m ((c : Thread nD τ).loc main_arg0)) slices_S50000x29x128_S50000x5x128_0_19_0) shapeCasts_S50000x5x128_S50000x640) bitsLt_bf16_f32 := by
  show StableHlo.after hostOps0 (fun b => m (c, b)) (Proc.devRef .tc main_v11) = _
  after_results
  rfl

theorem V_v14_term (c : Dev nD) :
    @Eq (S50000x640.Idx → EReal) (V m c main_v14) <| truncf (F := Ideal) .bf16 (shapeCast S50000x640 (extractStridedSlice S50000x5x128 ![0, 24, 0] (m ((c : Thread nD τ).loc main_arg0)) slices_S50000x29x128_S50000x5x128_0_24_0) shapeCasts_S50000x5x128_S50000x640) bitsLt_bf16_f32 := by
  show StableHlo.after hostOps0 (fun b => m (c, b)) (Proc.devRef .tc main_v14) = _
  after_results
  rfl

theorem V_v16_term (c : Dev nD) :
    @Eq (S896x896.Idx → EReal) (V m c main_v16) <| truncf (F := Ideal) .bf16 (transpose S896x896 [1, 0] (m ((c : Thread nD τ).loc main_arg1)) transposes_S896x896_S896x896_1_0) bitsLt_bf16_f32 := by
  show StableHlo.after hostOps0 (fun b => m (c, b)) (Proc.devRef .tc main_v16) = _
  after_results

theorem V_v17_term (c : Dev nD) :
    @Eq (S1x896.Idx → EReal) (V m c main_v17) <| shapeCast S1x896 (m ((c : Thread nD τ).loc main_arg2)) shapeCasts_S896_S1x896 := by
  show StableHlo.after hostOps0 (fun b => m (c, b)) (Proc.devRef .tc main_v17) = _
  after_results
  rfl

theorem V_v19_term (c : Dev nD) :
    @Eq (S768x1536.Idx → EReal) (V m c main_v19) <| truncf (F := Ideal) .bf16 (transpose S768x1536 [1, 0] (m ((c : Thread nD τ).loc main_arg3)) transposes_S1536x768_S768x1536_1_0) bitsLt_bf16_f32 := by
  show StableHlo.after hostOps0 (fun b => m (c, b)) (Proc.devRef .tc main_v19) = _
  after_results

theorem V_v21_term (c : Dev nD) :
    @Eq (S640x1280.Idx → EReal) (V m c main_v21) <| truncf (F := Ideal) .bf16 (transpose S640x1280 [1, 0] (m ((c : Thread nD τ).loc main_arg4)) transposes_S1280x640_S640x1280_1_0) bitsLt_bf16_f32 := by
  show StableHlo.after hostOps0 (fun b => m (c, b)) (Proc.devRef .tc main_v21) = _
  after_results

/-! ## The terms read at an index -/

/-- The five edge-tiled operands are slabs of `x`. -/
theorem V_v2_apply (c : Dev nD) (e : Fin 50000) (k : Fin 896) :
    V m c main_v2 (ix2 e k) = Cert.Spec.slab (m ((c : Thread nD τ).loc main_arg0)) 0 896 (by omega) e k :=
  (congrFun (V_v2_term m c) (ix2 e k)).trans
    (slab_read 0 (m ((c : Thread nD τ).loc main_arg0)) slices_S50000x29x128_S50000x7x128_0_0_0
      shapeCasts_S50000x7x128_S50000x896 rfl (by omega) e k)
theorem V_v5_apply (c : Dev nD) (e : Fin 50000) (k : Fin 768) :
    V m c main_v5 (ix2 e k) = Cert.Spec.slab (m ((c : Thread nD τ).loc main_arg0)) 7 768 (by omega) e k :=
  (congrFun (V_v5_term m c) (ix2 e k)).trans
    (slab_read 7 (m ((c : Thread nD τ).loc main_arg0)) slices_S50000x29x128_S50000x6x128_0_7_0
      shapeCasts_S50000x6x128_S50000x768 rfl (by omega) e k)
theorem V_v8_apply (c : Dev nD) (e : Fin 50000) (k : Fin 768) :
    V m c main_v8 (ix2 e k) = Cert.Spec.slab (m ((c : Thread nD τ).loc main_arg0)) 13 768 (by omega) e k :=
  (congrFun (V_v8_term m c) (ix2 e k)).trans
    (slab_read 13 (m ((c : Thread nD τ).loc main_arg0)) slices_S50000x29x128_S50000x6x128_0_13_0
      shapeCasts_S50000x6x128_S50000x768 rfl (by omega) e k)
theorem V_v11_apply (c : Dev nD) (e : Fin 50000) (k : Fin 640) :
    V m c main_v11 (ix2 e k) = Cert.Spec.slab (m ((c : Thread nD τ).loc main_arg0)) 19 640 (by omega) e k :=
  (congrFun (V_v11_term m c) (ix2 e k)).trans
    (slab_read 19 (m ((c : Thread nD τ).loc main_arg0)) slices_S50000x29x128_S50000x5x128_0_19_0
      shapeCasts_S50000x5x128_S50000x640 rfl (by omega) e k)
theorem V_v14_apply (c : Dev nD) (e : Fin 50000) (k : Fin 640) :
    V m c main_v14 (ix2 e k) = Cert.Spec.slab (m ((c : Thread nD τ).loc main_arg0)) 24 640 (by omega) e k :=
  (congrFun (V_v14_term m c) (ix2 e k)).trans
    (slab_read 24 (m ((c : Thread nD τ).loc main_arg0)) slices_S50000x29x128_S50000x5x128_0_24_0
      shapeCasts_S50000x5x128_S50000x640 rfl (by omega) e k)

/-- The resident operands are the transposed weights and the bias as one row. -/
theorem V_v16_apply (c : Dev nD) (k : Fin 896) (j : Fin 896) :
    V m c main_v16 (ix2 k j) = m ((c : Thread nD τ).loc main_arg1) (ix2 j k) :=
  (congrFun (V_v16_term m c) (ix2 k j)).trans
    (transpose_ix2_apply (m ((c : Thread nD τ).loc main_arg1)) transposes_S896x896_S896x896_1_0 k j)
theorem V_v17_apply (c : Dev nD) (u : Fin 1) (j : Fin 896) :
    V m c main_v17 (ix2 u j) = m ((c : Thread nD τ).loc main_arg2) (ix1 j) :=
  (congrFun (V_v17_term m c) (ix2 u j)).trans
    (shapeCast_a_1a_apply (m ((c : Thread nD τ).loc main_arg2)) shapeCasts_S896_S1x896 u j)
theorem V_v19_apply (c : Dev nD) (k : Fin 768) (j : Fin 1536) :
    V m c main_v19 (ix2 k j) = m ((c : Thread nD τ).loc main_arg3) (ix2 j k) :=
  (congrFun (V_v19_term m c) (ix2 k j)).trans
    (transpose_ix2_apply (m ((c : Thread nD τ).loc main_arg3)) transposes_S1536x768_S768x1536_1_0 k j)
theorem V_v21_apply (c : Dev nD) (k : Fin 640) (j : Fin 1280) :
    V m c main_v21 (ix2 k j) = m ((c : Thread nD τ).loc main_arg4) (ix2 j k) :=
  (congrFun (V_v21_term m c) (ix2 k j)).trans
    (transpose_ix2_apply (m ((c : Thread nD τ).loc main_arg4)) transposes_S1280x640_S640x1280_1_0 k j)

end Cert.KernelIdeal.HostIn

end
-- ==== Proof.Block.lean ====
import proofs.«133903_j42305427866205_1_alg».proof.Proof.Payload
import proofs.«133903_j42305427866205_1_alg».proof.Proof.HostIn
import proofs.«133903_j42305427866205_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

/-!
  The kernel's result array, over the extended reals.

  Grid step `t` (of 125) works on edges 400 t ‥ 400 t + 399: its five edge blocks are rows 400 t + p of the five slabs of
  `x`, the weights and the bias row are the same at every step, and its output block is rows 400 t + p of the
  [50000, 3712] array the call returns. Entry (p, j) of what the step leaves in the output block is the specification's
  `flat` at edge 400 t + p and column j (each of the five stored column groups is the matching block of `flat`); the 125
  output blocks tile the array, so the call's array ends holding `flat`, and the reshape after the call cuts each row of
  3712 into 29 components of 128: the specification's `result`.
-/

set_option maxRecDepth 16384

open scoped BigOperators

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx
open Idealize.ShloMosaic.Pipeline (Dat)

variable (m : (ℓ : Loc nD τ sig) → Buf (Elt Ideal) ℓ) (ρ : Dev nD → PrngReg)

/-- The five argument arrays. -/
abbrev aX (c : Dev nD) : Cert.Spec.SX.Idx → EReal := m ((c : Thread nD τ).loc main_arg0)
abbrev aW0 (c : Dev nD) : Cert.Spec.SW0.Idx → EReal := m ((c : Thread nD τ).loc main_arg1)
abbrev aB0 (c : Dev nD) : Cert.Spec.SB0.Idx → EReal := m ((c : Thread nD τ).loc main_arg2)
abbrev aW1 (c : Dev nD) : Cert.Spec.SW1.Idx → EReal := m ((c : Thread nD τ).loc main_arg3)
abbrev aW2 (c : Dev nD) : Cert.Spec.SW2.Idx → EReal := m ((c : Thread nD τ).loc main_arg4)

/-- Where the windows sit at grid step `t`: the five edge-tiled operands and the output at block row `t`, the four
    resident operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The edge that row `p` of grid step `t`'s blocks belongs to. -/
def row (t : Fin cfg0.N) (p : Fin 400) : Fin 50000 :=
  ⟨400 * t.val + p.val, by have hN : cfg0.N = 125 := N_0; have := t.isLt; have := p.isLt; omega⟩

/-! ## The blocks the step loads, as entries of the arrays the call is given -/

theorem iblk0_apply (c : Dev nD) (t : Fin cfg0.N) (p : Fin 400) (k : Fin 896) :
    (iblk m c 0 t : S400x896.Idx → EReal) (ix2 p k) = V m c main_v2 (ix2 (row t p) k) := by
  obtain ⟨e0, e1, -⟩ := idx_facts t
  unfold iblk
  rw [View.read_apply]
  show V m c main_v2 _ = V m c main_v2 _
  refine congrArg (V m c main_v2) (funext fun a => Fin.ext ?_)
  match a with
  | ⟨0, _⟩ => show win0_0.index t (0 : Fin 2) * 400 + 1 * p.val = 400 * t.val + p.val; omega
  | ⟨1, _⟩ => show win0_0.index t (1 : Fin 2) * 896 + 1 * k.val = k.val; omega

theorem iblk1_apply (c : Dev nD) (t : Fin cfg0.N) (p : Fin 400) (k : Fin 768) :
    (iblk m c 1 t : S400x768.Idx → EReal) (ix2 p k) = V m c main_v5 (ix2 (row t p) k) := by
  obtain ⟨-, -, e0, e1, -, -, -, -, -, -, -, -, -, -, -, -, -, -, -, -⟩ := idx_facts t
  unfold iblk
  rw [View.read_apply]
  show V m c main_v5 _ = V m c main_v5 _
  refine congrArg (V m c main_v5) (funext fun a => Fin.ext ?_)
  match a with
  | ⟨0, _⟩ => show win0_1.index t (0 : Fin 2) * 400 + 1 * p.val = 400 * t.val + p.val; omega
  | ⟨1, _⟩ => show win0_1.index t (1 : Fin 2) * 768 + 1 * k.val = k.val; omega

theorem iblk2_apply (c : Dev nD) (t : Fin cfg0.N) (p : Fin 400) (k : Fin 768) :
    (iblk m c 2 t : S400x768.Idx → EReal) (ix2 p k) = V m c main_v8 (ix2 (row t p) k) := by
  obtain ⟨-, -, -, -, e0, e1, -, -, -, -, -, -, -, -, -, -, -, -, -, -⟩ := idx_facts t
  unfold iblk
  rw [View.read_apply]
  show V m c main_v8 _ = V m c main_v8 _
  refine congrArg (V m c main_v8) (funext fun a => Fin.ext ?_)
  match a with
  | ⟨0, _⟩ => show win0_2.index t (0 : Fin 2) * 400 + 1 * p.val = 400 * t.val + p.val; omega
  | ⟨1, _⟩ => show win0_2.index t (1 : Fin 2) * 768 + 1 * k.val = k.val; omega

theorem iblk3_apply (c : Dev nD) (t : Fin cfg0.N) (p : Fin 400) (k : Fin 640) :
    (iblk m c 3 t : S400x640.Idx → EReal) (ix2 p k) = V m c main_v11 (ix2 (row t p) k) := by
  obtain ⟨-, -, -, -, -, -, e0, e1, -, -, -, -, -, -, -, -, -, -, -, -⟩ := idx_facts t
  unfold iblk
  rw [View.read_apply]
  show V m c main_v11 _ = V m c main_v11 _
  refine congrArg (V m c main_v11) (funext fun a => Fin.ext ?_)
  match a with
  | ⟨0, _⟩ => show win0_3.index t (0 : Fin 2) * 400 + 1 * p.val = 400 * t.val + p.val; omega
  | ⟨1, _⟩ => show win0_3.index t (1 : Fin 2) * 640 + 1 * k.val = k.val; omega

theorem iblk4_apply (c : Dev nD) (t : Fin cfg0.N) (p : Fin 400) (k : Fin 640) :
    (iblk m c 4 t : S400x640.Idx → EReal) (ix2 p k) = V m c main_v14 (ix2 (row t p) k) := by
  obtain ⟨-, -, -, -, -, -, -, -, e0, e1, -, -, -, -, -, -, -, -, -, -⟩ := idx_facts t
  unfold iblk
  rw [View.read_apply]
  show V m c main_v14 _ = V m c main_v14 _
  refine congrArg (V m c main_v14) (funext fun a => Fin.ext ?_)
  match a with
  | ⟨0, _⟩ => show win0_4.index t (0 : Fin 2) * 400 + 1 * p.val = 400 * t.val + p.val; omega
  | ⟨1, _⟩ => show win0_4.index t (1 : Fin 2) * 640 + 1 * k.val = k.val; omega

theorem iblk5_apply (c : Dev nD) (t : Fin cfg0.N) (k : Fin 896) (j : Fin 896) :
    (iblk m c 5 t : S896x896.Idx → EReal) (ix2 k j) = V m c main_v16 (ix2 k j) := by
  obtain ⟨-, -, -, -, -, -, -, -, -, -, e0, e1, -, -, -, -, -, -, -, -⟩ := idx_facts t
  unfold iblk
  rw [View.read_apply]
  show V m c main_v16 _ = V m c main_v16 _
  refine congrArg (V m c main_v16) (funext fun a => Fin.ext ?_)
  match a with
  | ⟨0, _⟩ => show win0_5.index t (0 : Fin 2) * 896 + 1 * k.val = k.val; omega
  | ⟨1, _⟩ => show win0_5.index t (1 : Fin 2) * 896 + 1 * j.val = j.val; omega

theorem iblk6_apply (c : Dev nD) (t : Fin cfg0.N) (k : Fin 1) (j : Fin 896) :
    (iblk m c 6 t : S1x896.Idx → EReal) (ix2 k j) = V m c main_v17 (ix2 k j) := by
  obtain ⟨-, -, -, -, -, -, -, -, -, -, -, -, e0, e1, -, -, -, -, -, -⟩ := idx_facts t
  unfold iblk
  rw [View.read_apply]
  show V m c main_v17 _ = V m c main_v17 _
  refine congrArg (V m c main_v17) (funext fun a => Fin.ext ?_)
  match a with
  | ⟨0, _⟩ => show win0_6.index t (0 : Fin 2) * 1 + 1 * k.val = k.val; omega
  | ⟨1, _⟩ => show win0_6.index t (1 : Fin 2) * 896 + 1 * j.val = j.val; omega

theorem iblk7_apply (c : Dev nD) (t : Fin cfg0.N) (k : Fin 768) (j : Fin 1536) :
    (iblk m c 7 t : S768x1536.Idx → EReal) (ix2 k j) = V m c main_v19 (ix2 k j) := by
  obtain ⟨-, -, -, -, -, -, -, -, -, -, -, -, -, -, e0, e1, -, -, -, -⟩ := idx_facts t
  unfold iblk
  rw [View.read_apply]
  show V m c main_v19 _ = V m c main_v19 _
  refine congrArg (V m c main_v19) (funext fun a => Fin.ext ?_)
  match a with
  | ⟨0, _⟩ => show win0_7.index t (0 : Fin 2) * 768 + 1 * k.val = k.val; omega
  | ⟨1, _⟩ => show win0_7.index t (1 : Fin 2) * 1536 + 1 * j.val = j.val; omega

theorem iblk8_apply (c : Dev nD) (t : Fin cfg0.N) (k : Fin 640) (j : Fin 1280) :
    (iblk m c 8 t : S640x1280.Idx → EReal) (ix2 k j) = V m c main_v21 (ix2 k j) := by
  obtain ⟨-, -, -, -, -, -, -, -, -, -, -, -, -, -, -, -, e0, e1, -, -⟩ := idx_facts t
  unfold iblk
  rw [View.read_apply]
  show V m c main_v21 _ = V m c main_v21 _
  refine congrArg (V m c main_v21) (funext fun a => Fin.ext ?_)
  match a with
  | ⟨0, _⟩ => show win0_8.index t (0 : Fin 2) * 640 + 1 * k.val = k.val; omega
  | ⟨1, _⟩ => show win0_8.index t (1 : Fin 2) * 1280 + 1 * j.val = j.val; omega

/-! ## The five stored column groups are blocks of the specification's row function -/

theorem piece_y0 (c : Dev nD) (t : Fin cfg0.N) (p : Fin 400) (q : Fin 896) :
    k0_pay4 (F := Ideal) (iblk m c 0 t) (iblk m c 5 t) (iblk m c 6 t) (ix2 p q)
      = Cert.Spec.y0 (aX m c) (aW0 m c) (aB0 m c) (row t p) q := by
  refine (Cert.KernelIdeal.Payload.pay4_apply _ _ _ p q).trans ?_
  unfold Cert.Spec.y0
  refine congrArg₂ _ (Finset.sum_congr rfl fun k _ => ?_) ?_
  · rw [iblk0_apply, iblk5_apply, Cert.KernelIdeal.HostIn.V_v2_apply, Cert.KernelIdeal.HostIn.V_v16_apply]
  · rw [iblk6_apply, Cert.KernelIdeal.HostIn.V_v17_apply]

theorem piece_pos1 (c : Dev nD) (t : Fin cfg0.N) (p : Fin 400) (q : Fin 768) :
    k0_pay7 (F := Ideal) (iblk m c 1 t) (iblk m c 7 t) (iblk m c 2 t) (iblk m c 7 t) (ix2 p q)
      = Cert.Spec.pos1 (aX m c) (aW1 m c) (row t p) q := by
  refine (Cert.KernelIdeal.Payload.pay7_apply _ _ _ _ p q).trans ?_
  unfold Cert.Spec.pos1 Cert.Spec.lin1
  refine congrArg₂ _ (Finset.sum_congr rfl fun k _ => ?_) (Finset.sum_congr rfl fun k _ => ?_)
  · rw [iblk1_apply, iblk7_apply, Cert.KernelIdeal.HostIn.V_v5_apply, Cert.KernelIdeal.HostIn.V_v19_apply]
  · rw [iblk2_apply, iblk7_apply, Cert.KernelIdeal.HostIn.V_v8_apply, Cert.KernelIdeal.HostIn.V_v19_apply]

theorem piece_neg1 (c : Dev nD) (t : Fin cfg0.N) (p : Fin 400) (q : Fin 768) :
    k0_pay8 (F := Ideal) (iblk m c 1 t) (iblk m c 7 t) (iblk m c 2 t) (iblk m c 7 t) (ix2 p q)
      = Cert.Spec.neg1 (aX m c) (aW1 m c) (row t p) q := by
  refine (Cert.KernelIdeal.Payload.pay8_apply _ _ _ _ p q).trans ?_
  unfold Cert.Spec.neg1 Cert.Spec.lin1
  refine congrArg₂ _ (Finset.sum_congr rfl fun k _ => ?_) (Finset.sum_congr rfl fun k _ => ?_)
  · rw [iblk2_apply, iblk7_apply, Cert.KernelIdeal.HostIn.V_v8_apply, Cert.KernelIdeal.HostIn.V_v19_apply]
  · rw [iblk1_apply, iblk7_apply, Cert.KernelIdeal.HostIn.V_v5_apply, Cert.KernelIdeal.HostIn.V_v19_apply]

theorem piece_pos2 (c : Dev nD) (t : Fin cfg0.N) (p : Fin 400) (q : Fin 640) :
    k0_pay2 (F := Ideal) (k0_pay9 (F := Ideal) (iblk m c 3 t) (iblk m c 8 t)) (k0_pay10 (F := Ideal) (iblk m c 4 t)) (iblk m c 8 t) (ix2 p q)
      = Cert.Spec.pos2 (aX m c) (aW2 m c) (row t p) q := by
  refine (Cert.KernelIdeal.Payload.pay2_apply _ _ _ _ p q).trans ?_
  unfold Cert.Spec.pos2 Cert.Spec.lin2
  refine congrArg₂ _ (Finset.sum_congr rfl fun k _ => ?_) (Finset.sum_congr rfl fun k _ => ?_)
  · rw [iblk3_apply, iblk8_apply, Cert.KernelIdeal.HostIn.V_v11_apply, Cert.KernelIdeal.HostIn.V_v21_apply]
  · rw [iblk4_apply, iblk8_apply, Cert.KernelIdeal.HostIn.V_v14_apply, Cert.KernelIdeal.HostIn.V_v21_apply]

theorem piece_neg2 (c : Dev nD) (t : Fin cfg0.N) (p : Fin 400) (q : Fin 640) :
    k0_pay3 (F := Ideal) (k0_pay9 (F := Ideal) (iblk m c 3 t) (iblk m c 8 t)) (k0_pay10 (F := Ideal) (iblk m c 4 t)) (iblk m c 8 t) (ix2 p q)
      = Cert.Spec.neg2 (aX m c) (aW2 m c) (row t p) q := by
  refine (Cert.KernelIdeal.Payload.pay3_apply _ _ _ _ p q).trans ?_
  unfold Cert.Spec.neg2 Cert.Spec.lin2
  refine congrArg₂ _ (Finset.sum_congr rfl fun k _ => ?_) (Finset.sum_congr rfl fun k _ => ?_)
  · rw [iblk4_apply, iblk8_apply, Cert.KernelIdeal.HostIn.V_v14_apply, Cert.KernelIdeal.HostIn.V_v21_apply]
  · rw [iblk3_apply, iblk8_apply, Cert.KernelIdeal.HostIn.V_v11_apply, Cert.KernelIdeal.HostIn.V_v21_apply]

/-! ## What a step leaves in the output block -/

/-- Entry `y` of the output block after grid step `t` is the specification's row function at edge `400 t + y₀`, column
    `y₁`: each of the five stored column groups agrees with it, and together they cover the block. -/
theorem outs_apply (c : Dev nD) (t : Fin cfg0.N) (y : S400x3712.Idx) :
    outsAt0 (F := Ideal) m c t y = Cert.Spec.flat (aX m c) (aW0 m c) (aB0 m c) (aW1 m c) (aW2 m c) (row t (y 0)) (y 1) := by
  have hy0 : (y 0).val < 400 := (y 0).isLt
  have hy1 : (y 1).val < 3712 := (y 1).isLt
  unfold outsAt0
  rw [Cert.KernelIdeal.Payload.out_canon]
  refine View.canon_apply_of_pieces (Val := Elt Ideal) (S := S400x3712) (e := .f32)
    (fun y => Cert.Spec.flat (aX m c) (aW0 m c) (aB0 m c) (aW1 m c) (aW2 m c) (row t (y 0)) (y 1)) _ ?_ y ?_
  · intro pc hpc x
    simp only [List.mem_cons, List.not_mem_nil, or_false] at hpc
    rcases hpc with rfl | rfl | rfl | rfl | rfl
    · obtain ⟨p, q, rfl⟩ : ∃ (p : Fin 400) (q : Fin 640), x = ix2 p q := ⟨x 0, x 1, eq_ix2 x⟩
      have hr : row t ((Rect.unit (s := S400x3712) ![0, 3072] ![400, 640] inb_S400x3712_S400x640_0_3072).emb (ix2 p q) 0) = row t p :=
        Fin.ext (by show 400 * t.val + (0 + 1 * p.val) = 400 * t.val + p.val; omega)
      show _ = Cert.Spec.flat (aX m c) (aW0 m c) (aB0 m c) (aW1 m c) (aW2 m c) (row t ((Rect.unit (s := S400x3712) ![0, 3072] ![400, 640] inb_S400x3712_S400x640_0_3072).emb (ix2 p q) 0)) _
      rw [hr]
      exact (piece_neg2 m c t p q).trans
        (Cert.Spec.flat_neg2 (aX m c) (aW0 m c) (aB0 m c) (aW1 m c) (aW2 m c) (row t p) _ q
          (by show 3072 + 1 * q.val = 3072 + q.val; omega)).symm
    · obtain ⟨p, q, rfl⟩ : ∃ (p : Fin 400) (q : Fin 640), x = ix2 p q := ⟨x 0, x 1, eq_ix2 x⟩
      have hr : row t ((Rect.unit (s := S400x3712) ![0, 2432] ![400, 640] inb_S400x3712_S400x640_0_2432).emb (ix2 p q) 0) = row t p :=
        Fin.ext (by show 400 * t.val + (0 + 1 * p.val) = 400 * t.val + p.val; omega)
      show _ = Cert.Spec.flat (aX m c) (aW0 m c) (aB0 m c) (aW1 m c) (aW2 m c) (row t ((Rect.unit (s := S400x3712) ![0, 2432] ![400, 640] inb_S400x3712_S400x640_0_2432).emb (ix2 p q) 0)) _
      rw [hr]
      exact (piece_pos2 m c t p q).trans
        (Cert.Spec.flat_pos2 (aX m c) (aW0 m c) (aB0 m c) (aW1 m c) (aW2 m c) (row t p) _ q
          (by show 2432 + 1 * q.val = 2432 + q.val; omega)).symm
    · obtain ⟨p, q, rfl⟩ : ∃ (p : Fin 400) (q : Fin 768), x = ix2 p q := ⟨x 0, x 1, eq_ix2 x⟩
      have hr : row t ((Rect.unit (s := S400x3712) ![0, 1664] ![400, 768] inb_S400x3712_S400x768_0_1664).emb (ix2 p q) 0) = row t p :=
        Fin.ext (by show 400 * t.val + (0 + 1 * p.val) = 400 * t.val + p.val; omega)
      show _ = Cert.Spec.flat (aX m c) (aW0 m c) (aB0 m c) (aW1 m c) (aW2 m c) (row t ((Rect.unit (s := S400x3712) ![0, 1664] ![400, 768] inb_S400x3712_S400x768_0_1664).emb (ix2 p q) 0)) _
      rw [hr]
      exact (piece_neg1 m c t p q).trans
        (Cert.Spec.flat_neg1 (aX m c) (aW0 m c) (aB0 m c) (aW1 m c) (aW2 m c) (row t p) _ q
          (by show 1664 + 1 * q.val = 1664 + q.val; omega)).symm
    · obtain ⟨p, q, rfl⟩ : ∃ (p : Fin 400) (q : Fin 768), x = ix2 p q := ⟨x 0, x 1, eq_ix2 x⟩
      have hr : row t ((Rect.unit (s := S400x3712) ![0, 896] ![400, 768] inb_S400x3712_S400x768_0_896).emb (ix2 p q) 0) = row t p :=
        Fin.ext (by show 400 * t.val + (0 + 1 * p.val) = 400 * t.val + p.val; omega)
      show _ = Cert.Spec.flat (aX m c) (aW0 m c) (aB0 m c) (aW1 m c) (aW2 m c) (row t ((Rect.unit (s := S400x3712) ![0, 896] ![400, 768] inb_S400x3712_S400x768_0_896).emb (ix2 p q) 0)) _
      rw [hr]
      exact (piece_pos1 m c t p q).trans
        (Cert.Spec.flat_pos1 (aX m c) (aW0 m c) (aB0 m c) (aW1 m c) (aW2 m c) (row t p) _ q
          (by show 896 + 1 * q.val = 896 + q.val; omega)).symm
    · obtain ⟨p, q, rfl⟩ : ∃ (p : Fin 400) (q : Fin 896), x = ix2 p q := ⟨x 0, x 1, eq_ix2 x⟩
      have hr : row t ((Rect.unit (s := S400x3712) ![0, 0] ![400, 896] inb_S400x3712_S400x896_0_0).emb (ix2 p q) 0) = row t p :=
        Fin.ext (by show 400 * t.val + (0 + 1 * p.val) = 400 * t.val + p.val; omega)
      show _ = Cert.Spec.flat (aX m c) (aW0 m c) (aB0 m c) (aW1 m c) (aW2 m c) (row t ((Rect.unit (s := S400x3712) ![0, 0] ![400, 896] inb_S400x3712_S400x896_0_0).emb (ix2 p q) 0)) _
      rw [hr]
      exact (piece_y0 m c t p q).trans
        (Cert.Spec.flat_y0 (aX m c) (aW0 m c) (aB0 m c) (aW1 m c) (aW2 m c) (row t p) _ q
          (by show 0 + 1 * q.val = q.val; omega)).symm
  · by_cases h0 : (y 1).val < 896
    · refine ⟨_, List.mem_cons_of_mem _ (List.mem_cons_of_mem _ (List.mem_cons_of_mem _ (List.mem_cons_of_mem _ (List.mem_cons_self)))), ?_⟩
      show y ∈ (Rect.unit (s := S400x3712) ![0, 0] ![400, 896] inb_S400x3712_S400x896_0_0).set
      exact Rect.mem_set_unit.mpr fun a => match a with
        | ⟨0, _⟩ => by show 0 ≤ (y 0).val ∧ (y 0).val < 0 + 400; omega
        | ⟨1, _⟩ => by show 0 ≤ (y 1).val ∧ (y 1).val < 0 + 896; omega
    · by_cases h1 : (y 1).val < 1664
      · refine ⟨_, List.mem_cons_of_mem _ (List.mem_cons_of_mem _ (List.mem_cons_of_mem _ (List.mem_cons_self))), ?_⟩
        show y ∈ (Rect.unit (s := S400x3712) ![0, 896] ![400, 768] inb_S400x3712_S400x768_0_896).set
        exact Rect.mem_set_unit.mpr fun a => match a with
          | ⟨0, _⟩ => by show 0 ≤ (y 0).val ∧ (y 0).val < 0 + 400; omega
          | ⟨1, _⟩ => by show 896 ≤ (y 1).val ∧ (y 1).val < 896 + 768; omega
      · by_cases h2 : (y 1).val < 2432
        · refine ⟨_, List.mem_cons_of_mem _ (List.mem_cons_of_mem _ (List.mem_cons_self)), ?_⟩
          show y ∈ (Rect.unit (s := S400x3712) ![0, 1664] ![400, 768] inb_S400x3712_S400x768_0_1664).set
          exact Rect.mem_set_unit.mpr fun a => match a with
            | ⟨0, _⟩ => by show 0 ≤ (y 0).val ∧ (y 0).val < 0 + 400; omega
            | ⟨1, _⟩ => by show 1664 ≤ (y 1).val ∧ (y 1).val < 1664 + 768; omega
        · by_cases h3 : (y 1).val < 3072
          · refine ⟨_, List.mem_cons_of_mem _ (List.mem_cons_self), ?_⟩
            show y ∈ (Rect.unit (s := S400x3712) ![0, 2432] ![400, 640] inb_S400x3712_S400x640_0_2432).set
            exact Rect.mem_set_unit.mpr fun a => match a with
              | ⟨0, _⟩ => by show 0 ≤ (y 0).val ∧ (y 0).val < 0 + 400; omega
              | ⟨1, _⟩ => by show 2432 ≤ (y 1).val ∧ (y 1).val < 2432 + 640; omega
          · refine ⟨_, List.mem_cons_self, ?_⟩
            show y ∈ (Rect.unit (s := S400x3712) ![0, 3072] ![400, 640] inb_S400x3712_S400x640_0_3072).set
            exact Rect.mem_set_unit.mpr fun a => match a with
              | ⟨0, _⟩ => by show 0 ≤ (y 0).val ∧ (y 0).val < 0 + 400; omega
              | ⟨1, _⟩ => by show 3072 ≤ (y 1).val ∧ (y 1).val < 3072 + 640; omega

/-! ## The call's array after the run -/

/-- What grid step `t` writes back is block `t` of the specification's rows. -/
theorem flushed_eq (c : Dev nD) (t : Fin cfg0.N) :
    (dats m 0 c).flushed 9 t = ((cfg0.win 9).blk t).view.read (Elt Ideal) (Cert.Spec.flatArr (aX m c) (aW0 m c) (aB0 m c) (aW1 m c) (aW2 m c)) := by
  obtain ⟨-, -, -, -, -, -, -, -, -, -, -, -, -, -, -, -, -, -, e0, e1⟩ := idx_facts t
  show (cfg0.win 9).cut (grid0.coords t) ((dats m 0 c).after 9 t) = _
  rw [after0_9]
  funext y
  show outsAt0 m c t y = Cert.Spec.flatArr (aX m c) (aW0 m c) (aB0 m c) (aW1 m c) (aW2 m c) (((cfg0.win 9).blk t).view.emb y)
  rw [outs_apply]
  unfold Cert.Spec.flatArr
  refine congrArg₂ (Cert.Spec.flat (aX m c) (aW0 m c) (aB0 m c) (aW1 m c) (aW2 m c)) (Fin.ext ?_) (Fin.ext ?_)
  · show 400 * t.val + (y 0).val = win0_9.index t (0 : Fin 2) * 400 + 1 * (y 0).val; omega
  · show (y 1).val = win0_9.index t (1 : Fin 2) * 3712 + 1 * (y 1).val; omega

/-- An index of the call's array is in step `t`'s block iff each coordinate is in the block's range. -/
theorem mem_blk (t : Fin cfg0.N) (i : S50000x3712.Idx) :
    i ∈ ((cfg0.win 9).blk t).view.set ↔ ∀ a : Fin 2, win0_9.index t a * S400x3712.size a ≤ (i a).val
      ∧ (i a).val < win0_9.index t a * S400x3712.size a + S400x3712.size a := by
  show i ∈ ((View.whole main_v22).slice (win0_9.rect t)).set ↔ _
  rw [View.set_slice_whole, Rect.mem_set_unit]
  exact Iff.rfl

/-- The 125 output blocks tile the array: row `r` is in the block of step `r / 400`. -/
theorem cover (i : S50000x3712.Idx) :
    ∃ t : Fin cfg0.N, (cfg0.win 9).flush t = true ∧ i ∈ ((cfg0.win 9).blk t).view.set := by
  have hN : cfg0.N = 125 := N_0
  have hi0 : (i 0).val < 50000 := (i 0).isLt
  have hi1 : (i 1).val < 3712 := (i 1).isLt
  obtain ⟨t, ht⟩ : ∃ t : Fin cfg0.N, t.val = (i 0).val / 400 := ⟨⟨(i 0).val / 400, by omega⟩, rfl⟩
  obtain ⟨-, -, -, -, -, -, -, -, -, -, -, -, -, -, -, -, -, -, e0, e1⟩ := idx_facts t
  refine ⟨t, flush0_9 t, (mem_blk t i).mpr fun a => ?_⟩
  match a with
  | ⟨0, _⟩ =>
    show win0_9.index t (0 : Fin 2) * 400 ≤ (i 0).val ∧ (i 0).val < win0_9.index t (0 : Fin 2) * 400 + 400
    omega
  | ⟨1, _⟩ =>
    show win0_9.index t (1 : Fin 2) * 3712 ≤ (i 1).val ∧ (i 1).val < win0_9.index t (1 : Fin 2) * 3712 + 3712
    omega

/-- So the call's array ends holding the specification's rows. -/
theorem final (c : Dev nD) : (dats m 0 c).arrAt 9 cfg0.N = Cert.Spec.flatArr (aX m c) (aW0 m c) (aB0 m c) (aW1 m c) (aW2 m c) :=
  (dats m 0 c).arrAt_eq_of_cover 9 (Cert.Spec.flatArr (aX m c) (aW0 m c) (aB0 m c) (aW1 m c) (aW2 m c)) (fun t _ => flushed_eq m c t) cover

/-! ## The reshape after the call, and the run -/

/-- The program's result: the call's array with each row of 3712 cut into 29 components of 128. -/
theorem tail_eq (c : Dev nD) :
    Pipeline.afterTail₀ cfgs (dats m) 0 (V0 m) [hostOps1] c main_v23 = Cert.Spec.result (aX m c) (aW0 m c) (aB0 m c) (aW1 m c) (aW2 m c) := by
  unfold Pipeline.afterTail₀
  show StableHlo.after hostOps1 _ (Proc.devRef .tc main_v23) = _
  after_results
  funext i
  show shapeCast S50000x29x128 (Pipeline.withArrays (cfgs 0).spec c (V0 m c)
      (fun w => (dats m 0 c).arrAt w (cfgs 0).N) (Proc.devRef .tc main_v22)) shapeCasts_S50000x3712_S50000x29x128 i = _
  have hw : Pipeline.withArrays (cfgs 0).spec c (V0 m c) (fun w => (dats m 0 c).arrAt w (cfgs 0).N)
      (Proc.devRef .tc main_v22) = Cert.Spec.flatArr (aX m c) (aW0 m c) (aB0 m c) (aW1 m c) (aW2 m c) :=
    (Pipeline.withArrays_arr spec0 launch0.win.arr_inj c _ _ 9).trans (final m c)
  rw [hw]
  obtain ⟨e, n, k, rfl⟩ : ∃ (e : Fin 50000) (n : Fin 29) (k : Fin 128), i = ix3 e n k := ⟨i 0, i 1, i 2, eq_ix3 i⟩
  have hn := n.isLt
  have hk := k.isLt
  refine (shapeCast_apply _ _ (ix3 e n k) (ix2 e ⟨n.val * 128 + k.val, by omega⟩) ?_).trans rfl
  rw [Shape.rowMajor_val_two, Shape.rowMajor_val_three]
  show e.val * 3712 + (n.val * 128 + k.val) = (e.val * 29 + n.val) * 128 + k.val
  omega

/-- Every weakly fair execution of the idealized kernel program terminates with its result at the specification's
    `result` of the five argument arrays, and the arguments unchanged. -/
theorem run : θ_run defs (onTc (τ := τ) (main (F := Ideal))) ⟨m, fun _ => 0, ρ⟩ fun r => ∀ c : Dev nD,
      r.2.mem ((c.tc : Thread nD τ).loc main_v23) = Cert.Spec.result (aX m c) (aW0 m c) (aB0 m c) (aW1 m c) (aW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Block

end
-- ==== Proof.RefValue.lean ====
import proofs.«133903_j42305427866205_1_alg».proof.Proof.Gen.ReferenceIdeal.Read
import proofs.«133903_j42305427866205_1_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- Block m = 0: component `n`, entry `c` of it is column `128 n + c` of the first 896 numbers of the edge
    through the first weight, plus the bias. -/
theorem piece0 (x0 : (⟨S50000x29x128, .f32⟩ : BufTy).Contents (Elt Ideal))
    (x1 : (⟨S896x896, .f32⟩ : BufTy).Contents (Elt Ideal)) (x2 : (⟨S896, .f32⟩ : BufTy).Contents (Elt Ideal))
    (e : Fin 50000) (n : Fin 7) (c : Fin 128) :
    Read.val_main_v7 (F := Ideal) x0 x1 x2 (ix3 e n c)
      = Cert.Spec.y0 x0 x1 x2 e ⟨n.val * 128 + c.val, by have := n.isLt; have := c.isLt; omega⟩ := by
  have he := e.isLt
  have hn := n.isLt
  have hc := c.isLt
  rw [Read.val_main_v7_apply, Read.val_main_v6_apply, Read.val_main_v3_apply, Read.val_main_v5_apply,
    Read.val_main_v4_apply]
  unfold Cert.Spec.y0
  refine congrArg₂ (· + ·) (Finset.sum_congr rfl fun k _ => ?_) (congrArg x2 ?_)
  · have hk := k.isLt
    rw [Read.val_main_v1_apply, Read.val_main_v0_apply, Read.val_main_v2_apply]
    unfold Cert.Spec.slab
    refine congrArg₂ (· * ·) (congrArg x0 ?_) (congrArg x1 ?_)
    · funext a
      match a with
      | ⟨0, _⟩ => exact Fin.ext (by
          show (((e.val * 7 + n.val) * 128 + c.val) / 896 * 896 + k.val) / 896 = e.val; omega)
      | ⟨1, _⟩ => exact Fin.ext (by
          show (((e.val * 7 + n.val) * 128 + c.val) / 896 * 896 + k.val) / 128 % 7 = 0 + k.val / 128; omega)
      | ⟨2, _⟩ => exact Fin.ext (by
          show (((e.val * 7 + n.val) * 128 + c.val) / 896 * 896 + k.val) % 128 = k.val % 128; omega)
    · funext a
      match a with
      | ⟨0, _⟩ => exact Fin.ext (by
          show ((e.val * 7 + n.val) * 128 + c.val) % 896 = n.val * 128 + c.val; omega)
      | ⟨1, _⟩ => rfl
  · funext a
    match a with
    | ⟨0, _⟩ => exact Fin.ext (by
        show ((e.val * 7 + n.val) * 128 + c.val) % 896 = n.val * 128 + c.val; omega)

/-- Row `j` of the shared weight against half `s` of the regrouped slab: half `s` starts at component
    `7 + 6 s`, so position `k` of it is component `7 + 6 s + k / 128`, entry `k % 128`. -/
theorem dot1_row (x0 : (⟨S50000x29x128, .f32⟩ : BufTy).Contents (Elt Ideal))
    (w : (⟨S1536x768, .f32⟩ : BufTy).Contents (Elt Ideal))
    (e : Fin 50000) (s : Fin 2) (j : Fin 1536) (o : Nat) (ho : o * 128 + 768 ≤ 29 * 128) (hos : o = 7 + 6 * s.val) :
    Read.val_main_v10 (F := Ideal) x0 w (ix3 e s j) = Cert.Spec.lin1 x0 w o ho e j := by
  have he := e.isLt
  have hs := s.isLt
  rw [Read.val_main_v10_apply]
  unfold Cert.Spec.lin1
  refine Finset.sum_congr rfl fun k _ => ?_
  have hk := k.isLt
  rw [Read.val_main_v9_apply, Read.val_main_v8_apply]
  unfold Cert.Spec.slab
  refine congrArg₂ (· * ·) (congrArg x0 ?_) (congrArg w ?_)
  · funext a
    match a with
    | ⟨0, _⟩ => exact Fin.ext (by
        show ((e.val * 2 + s.val) * 768 + k.val) / 1536 = e.val; omega)
    | ⟨1, _⟩ => exact Fin.ext (by
        show 7 + ((e.val * 2 + s.val) * 768 + k.val) / 128 % 12 = o + k.val / 128; omega)
    | ⟨2, _⟩ => exact Fin.ext (by
        show ((e.val * 2 + s.val) * 768 + k.val) % 128 = k.val % 128; omega)
  · funext a
    match a with
    | ⟨0, _⟩ => rfl
    | ⟨1, _⟩ => rfl

/-- Row `j` of the shared weight against half `s` of the regrouped slab: half `s` starts at component
    `19 + 5 s`, so position `k` of it is component `19 + 5 s + k / 128`, entry `k % 128`. -/
theorem dot2_row (x0 : (⟨S50000x29x128, .f32⟩ : BufTy).Contents (Elt Ideal))
    (w : (⟨S1280x640, .f32⟩ : BufTy).Contents (Elt Ideal))
    (e : Fin 50000) (s : Fin 2) (j : Fin 1280) (o : Nat) (ho : o * 128 + 640 ≤ 29 * 128) (hos : o = 19 + 5 * s.val) :
    Read.val_main_v27 (F := Ideal) x0 w (ix3 e s j) = Cert.Spec.lin2 x0 w o ho e j := by
  have he := e.isLt
  have hs := s.isLt
  rw [Read.val_main_v27_apply]
  unfold Cert.Spec.lin2
  refine Finset.sum_congr rfl fun k _ => ?_
  have hk := k.isLt
  rw [Read.val_main_v26_apply, Read.val_main_v25_apply]
  unfold Cert.Spec.slab
  refine congrArg₂ (· * ·) (congrArg x0 ?_) (congrArg w ?_)
  · funext a
    match a with
    | ⟨0, _⟩ => exact Fin.ext (by
        show ((e.val * 2 + s.val) * 640 + k.val) / 1280 = e.val; omega)
    | ⟨1, _⟩ => exact Fin.ext (by
        show 19 + ((e.val * 2 + s.val) * 640 + k.val) / 128 % 10 = o + k.val / 128; omega)
    | ⟨2, _⟩ => exact Fin.ext (by
        show ((e.val * 2 + s.val) * 640 + k.val) % 128 = k.val % 128; omega)
  · funext a
    match a with
    | ⟨0, _⟩ => rfl
    | ⟨1, _⟩ => rfl

/-- Block m = 1, first half: component `n`, entry `c` of it is column `128 n + c` of the real slab's first 768 rows minus the imaginary slab's last 768 rows. -/
theorem piece1 (x0 : (⟨S50000x29x128, .f32⟩ : BufTy).Contents (Elt Ideal))
    (w : (⟨S1536x768, .f32⟩ : BufTy).Contents (Elt Ideal))
    (e : Fin 50000) (n : Fin 6) (c : Fin 128) :
    Read.val_main_v23 (F := Ideal) x0 w (ix3 e n c)
      = Cert.Spec.pos1 x0 w e ⟨n.val * 128 + c.val, by have := n.isLt; have := c.isLt; omega⟩ := by
  have he := e.isLt
  have hn := n.isLt
  have hc := c.isLt
  rw [Read.val_main_v23_apply, Read.val_main_v17_apply]
  unfold Cert.Spec.pos1
  refine congrArg₂ (· - ·) ?_ ?_
  · rw [Read.val_main_v14_apply, Read.val_main_v13_apply, Read.val_main_v11_apply]
    refine (congrArg (Read.val_main_v10 (F := Ideal) x0 w) ?_).trans
      (dot1_row x0 w e ⟨0, by omega⟩ ⟨(n.val * 128 + c.val), by omega⟩ 7 (by omega) (by rfl))
    funext a
    match a with
    | ⟨0, _⟩ => exact Fin.ext (by
        show (((e.val * 6 + n.val) * 128 + c.val) / 768 * 768 + ((e.val * 6 + n.val) * 128 + c.val) % 768) / 768 = e.val; omega)
    | ⟨1, _⟩ => exact Fin.ext (by
        show 0 = 0; omega)
    | ⟨2, _⟩ => exact Fin.ext (by
        show (((e.val * 6 + n.val) * 128 + c.val) / 768 * 768 + ((e.val * 6 + n.val) * 128 + c.val) % 768) % 768 = (n.val * 128 + c.val); omega)
  · rw [Read.val_main_v16_apply, Read.val_main_v15_apply, Read.val_main_v12_apply]
    refine (congrArg (Read.val_main_v10 (F := Ideal) x0 w) ?_).trans
      (dot1_row x0 w e ⟨1, by omega⟩ ⟨768 + (n.val * 128 + c.val), by omega⟩ 13 (by omega) (by rfl))
    funext a
    match a with
    | ⟨0, _⟩ => exact Fin.ext (by
        show (((e.val * 6 + n.val) * 128 + c.val) / 768 * 768 + ((e.val * 6 + n.val) * 128 + c.val) % 768) / 768 = e.val; omega)
    | ⟨1, _⟩ => exact Fin.ext (by
        show 1 + 0 = 1; omega)
    | ⟨2, _⟩ => exact Fin.ext (by
        show 768 + (((e.val * 6 + n.val) * 128 + c.val) / 768 * 768 + ((e.val * 6 + n.val) * 128 + c.val) % 768) % 768 = 768 + (n.val * 128 + c.val); omega)

/-- Block m = 1, second half: the imaginary slab's first 768 rows plus the real slab's last 768 rows. -/
theorem piece2 (x0 : (⟨S50000x29x128, .f32⟩ : BufTy).Contents (Elt Ideal))
    (w : (⟨S1536x768, .f32⟩ : BufTy).Contents (Elt Ideal))
    (e : Fin 50000) (n : Fin 6) (c : Fin 128) :
    Read.val_main_v24 (F := Ideal) x0 w (ix3 e n c)
      = Cert.Spec.neg1 x0 w e ⟨n.val * 128 + c.val, by have := n.isLt; have := c.isLt; omega⟩ := by
  have he := e.isLt
  have hn := n.isLt
  have hc := c.isLt
  rw [Read.val_main_v24_apply, Read.val_main_v22_apply]
  unfold Cert.Spec.neg1
  refine congrArg₂ (· + ·) ?_ ?_
  · rw [Read.val_main_v19_apply, Read.val_main_v18_apply, Read.val_main_v11_apply]
    refine (congrArg (Read.val_main_v10 (F := Ideal) x0 w) ?_).trans
      (dot1_row x0 w e ⟨1, by omega⟩ ⟨(n.val * 128 + c.val), by omega⟩ 13 (by omega) (by rfl))
    funext a
    match a with
    | ⟨0, _⟩ => exact Fin.ext (by
        show (((e.val * 6 + n.val) * 128 + c.val) / 768 * 768 + ((e.val * 6 + n.val) * 128 + c.val) % 768) / 768 = e.val; omega)
    | ⟨1, _⟩ => exact Fin.ext (by
        show 1 + 0 = 1; omega)
    | ⟨2, _⟩ => exact Fin.ext (by
        show (((e.val * 6 + n.val) * 128 + c.val) / 768 * 768 + ((e.val * 6 + n.val) * 128 + c.val) % 768) % 768 = (n.val * 128 + c.val); omega)
  · rw [Read.val_main_v21_apply, Read.val_main_v20_apply, Read.val_main_v12_apply]
    refine (congrArg (Read.val_main_v10 (F := Ideal) x0 w) ?_).trans
      (dot1_row x0 w e ⟨0, by omega⟩ ⟨768 + (n.val * 128 + c.val), by omega⟩ 7 (by omega) (by rfl))
    funext a
    match a with
    | ⟨0, _⟩ => exact Fin.ext (by
        show (((e.val * 6 + n.val) * 128 + c.val) / 768 * 768 + ((e.val * 6 + n.val) * 128 + c.val) % 768) / 768 = e.val; omega)
    | ⟨1, _⟩ => exact Fin.ext (by
        show 0 = 0; omega)
    | ⟨2, _⟩ => exact Fin.ext (by
        show 768 + (((e.val * 6 + n.val) * 128 + c.val) / 768 * 768 + ((e.val * 6 + n.val) * 128 + c.val) % 768) % 768 = 768 + (n.val * 128 + c.val); omega)

/-- Block m = 2, first half: the real slab's first 640 rows minus the imaginary slab's last 640 rows. -/
theorem piece3 (x0 : (⟨S50000x29x128, .f32⟩ : BufTy).Contents (Elt Ideal))
    (w : (⟨S1280x640, .f32⟩ : BufTy).Contents (Elt Ideal))
    (e : Fin 50000) (n : Fin 5) (c : Fin 128) :
    Read.val_main_v40 (F := Ideal) x0 w (ix3 e n c)
      = Cert.Spec.pos2 x0 w e ⟨n.val * 128 + c.val, by have := n.isLt; have := c.isLt; omega⟩ := by
  have he := e.isLt
  have hn := n.isLt
  have hc := c.isLt
  rw [Read.val_main_v40_apply, Read.val_main_v34_apply]
  unfold Cert.Spec.pos2
  refine congrArg₂ (· - ·) ?_ ?_
  · rw [Read.val_main_v31_apply, Read.val_main_v30_apply, Read.val_main_v28_apply]
    refine (congrArg (Read.val_main_v27 (F := Ideal) x0 w) ?_).trans
      (dot2_row x0 w e ⟨0, by omega⟩ ⟨(n.val * 128 + c.val), by omega⟩ 19 (by omega) (by rfl))
    funext a
    match a with
    | ⟨0, _⟩ => exact Fin.ext (by
        show (((e.val * 5 + n.val) * 128 + c.val) / 640 * 640 + ((e.val * 5 + n.val) * 128 + c.val) % 640) / 640 = e.val; omega)
    | ⟨1, _⟩ => exact Fin.ext (by
        show 0 = 0; omega)
    | ⟨2, _⟩ => exact Fin.ext (by
        show (((e.val * 5 + n.val) * 128 + c.val) / 640 * 640 + ((e.val * 5 + n.val) * 128 + c.val) % 640) % 640 = (n.val * 128 + c.val); omega)
  · rw [Read.val_main_v33_apply, Read.val_main_v32_apply, Read.val_main_v29_apply]
    refine (congrArg (Read.val_main_v27 (F := Ideal) x0 w) ?_).trans
      (dot2_row x0 w e ⟨1, by omega⟩ ⟨640 + (n.val * 128 + c.val), by omega⟩ 24 (by omega) (by rfl))
    funext a
    match a with
    | ⟨0, _⟩ => exact Fin.ext (by
        show (((e.val * 5 + n.val) * 128 + c.val) / 640 * 640 + ((e.val * 5 + n.val) * 128 + c.val) % 640) / 640 = e.val; omega)
    | ⟨1, _⟩ => exact Fin.ext (by
        show 1 + 0 = 1; omega)
    | ⟨2, _⟩ => exact Fin.ext (by
        show 640 + (((e.val * 5 + n.val) * 128 + c.val) / 640 * 640 + ((e.val * 5 + n.val) * 128 + c.val) % 640) % 640 = 640 + (n.val * 128 + c.val); omega)

/-- Block m = 2, second half: the imaginary slab's first 640 rows plus the real slab's last 640 rows. -/
theorem piece4 (x0 : (⟨S50000x29x128, .f32⟩ : BufTy).Contents (Elt Ideal))
    (w : (⟨S1280x640, .f32⟩ : BufTy).Contents (Elt Ideal))
    (e : Fin 50000) (n : Fin 5) (c : Fin 128) :
    Read.val_main_v41 (F := Ideal) x0 w (ix3 e n c)
      = Cert.Spec.neg2 x0 w e ⟨n.val * 128 + c.val, by have := n.isLt; have := c.isLt; omega⟩ := by
  have he := e.isLt
  have hn := n.isLt
  have hc := c.isLt
  rw [Read.val_main_v41_apply, Read.val_main_v39_apply]
  unfold Cert.Spec.neg2
  refine congrArg₂ (· + ·) ?_ ?_
  · rw [Read.val_main_v36_apply, Read.val_main_v35_apply, Read.val_main_v28_apply]
    refine (congrArg (Read.val_main_v27 (F := Ideal) x0 w) ?_).trans
      (dot2_row x0 w e ⟨1, by omega⟩ ⟨(n.val * 128 + c.val), by omega⟩ 24 (by omega) (by rfl))
    funext a
    match a with
    | ⟨0, _⟩ => exact Fin.ext (by
        show (((e.val * 5 + n.val) * 128 + c.val) / 640 * 640 + ((e.val * 5 + n.val) * 128 + c.val) % 640) / 640 = e.val; omega)
    | ⟨1, _⟩ => exact Fin.ext (by
        show 1 + 0 = 1; omega)
    | ⟨2, _⟩ => exact Fin.ext (by
        show (((e.val * 5 + n.val) * 128 + c.val) / 640 * 640 + ((e.val * 5 + n.val) * 128 + c.val) % 640) % 640 = (n.val * 128 + c.val); omega)
  · rw [Read.val_main_v38_apply, Read.val_main_v37_apply, Read.val_main_v29_apply]
    refine (congrArg (Read.val_main_v27 (F := Ideal) x0 w) ?_).trans
      (dot2_row x0 w e ⟨0, by omega⟩ ⟨640 + (n.val * 128 + c.val), by omega⟩ 19 (by omega) (by rfl))
    funext a
    match a with
    | ⟨0, _⟩ => exact Fin.ext (by
        show (((e.val * 5 + n.val) * 128 + c.val) / 640 * 640 + ((e.val * 5 + n.val) * 128 + c.val) % 640) / 640 = e.val; omega)
    | ⟨1, _⟩ => exact Fin.ext (by
        show 0 = 0; omega)
    | ⟨2, _⟩ => exact Fin.ext (by
        show 640 + (((e.val * 5 + n.val) * 128 + c.val) / 640 * 640 + ((e.val * 5 + n.val) * 128 + c.val) % 640) % 640 = 640 + (n.val * 128 + c.val); omega)

/-- The reference's result array, at the ideal values, is the specification's `result` of its five arguments. -/
theorem result_eq (m : (ℓ : Loc nD τ sig) → Buf (Elt Ideal) ℓ) (c : Dev nD) :
    Cert.ReferenceIdeal.Value.res_main_v42 (F := Ideal) m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [Read.val_main_v42_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  funext i
  obtain ⟨e, n, c', rfl⟩ : ∃ (e : Fin 50000) (n : Fin 29) (c' : Fin 128), i = ix3 e n c' :=
    ⟨i 0, i 1, i 2, eq_ix3 i⟩
  have hn := n.isLt
  have hc := c'.isLt
  unfold Read.val_main_v42 Cert.Spec.result
  by_cases h0 : n.val < 7
  ·
    refine (concatenate_apply_piece (t := S50000x29x128) 1 _ _ (ix3 e n c') 0 (by show 0 < 5; omega) S50000x7x128 _ rfl rfl 0 rfl
      (ix3 e ⟨n.val - 0, by omega⟩ c')
      (fun b hb => match b, hb with
        | ⟨0, _⟩, _ => rfl
        | ⟨1, _⟩, hb => absurd (Fin.ext rfl) hb
        | ⟨2, _⟩, _ => rfl)
      (by show 0 + (n.val - 0) = n.val; omega)).trans ?_
    refine (piece0 x0 x1 x2 e ⟨n.val - 0, by omega⟩ c').trans (Cert.Spec.flat_y0 x0 x1 x2 x3 x4 e _ _ ?_).symm
    show n.val * 128 + c'.val = (n.val - 0) * 128 + c'.val; omega
  by_cases h1 : n.val < 13
  ·
    refine (concatenate_apply_piece (t := S50000x29x128) 1 _ _ (ix3 e n c') 1 (by show 1 < 5; omega) S50000x6x128 _ rfl rfl 7 rfl
      (ix3 e ⟨n.val - 7, by omega⟩ c')
      (fun b hb => match b, hb with
        | ⟨0, _⟩, _ => rfl
        | ⟨1, _⟩, hb => absurd (Fin.ext rfl) hb
        | ⟨2, _⟩, _ => rfl)
      (by show 7 + (n.val - 7) = n.val; omega)).trans ?_
    refine (piece1 x0 x3 e ⟨n.val - 7, by omega⟩ c').trans (Cert.Spec.flat_pos1 x0 x1 x2 x3 x4 e _ _ ?_).symm
    show n.val * 128 + c'.val = 896 + ((n.val - 7) * 128 + c'.val); omega
  by_cases h2 : n.val < 19
  ·
    refine (concatenate_apply_piece (t := S50000x29x128) 1 _ _ (ix3 e n c') 2 (by show 2 < 5; omega) S50000x6x128 _ rfl rfl 13 rfl
      (ix3 e ⟨n.val - 13, by omega⟩ c')
      (fun b hb => match b, hb with
        | ⟨0, _⟩, _ => rfl
        | ⟨1, _⟩, hb => absurd (Fin.ext rfl) hb
        | ⟨2, _⟩, _ => rfl)
      (by show 13 + (n.val - 13) = n.val; omega)).trans ?_
    refine (piece2 x0 x3 e ⟨n.val - 13, by omega⟩ c').trans (Cert.Spec.flat_neg1 x0 x1 x2 x3 x4 e _ _ ?_).symm
    show n.val * 128 + c'.val = 1664 + ((n.val - 13) * 128 + c'.val); omega
  by_cases h3 : n.val < 24
  ·
    refine (concatenate_apply_piece (t := S50000x29x128) 1 _ _ (ix3 e n c') 3 (by show 3 < 5; omega) S50000x5x128 _ rfl rfl 19 rfl
      (ix3 e ⟨n.val - 19, by omega⟩ c')
      (fun b hb => match b, hb with
        | ⟨0, _⟩, _ => rfl
        | ⟨1, _⟩, hb => absurd (Fin.ext rfl) hb
        | ⟨2, _⟩, _ => rfl)
      (by show 19 + (n.val - 19) = n.val; omega)).trans ?_
    refine (piece3 x0 x4 e ⟨n.val - 19, by omega⟩ c').trans (Cert.Spec.flat_pos2 x0 x1 x2 x3 x4 e _ _ ?_).symm
    show n.val * 128 + c'.val = 2432 + ((n.val - 19) * 128 + c'.val); omega
  ·
    refine (concatenate_apply_piece (t := S50000x29x128) 1 _ _ (ix3 e n c') 4 (by show 4 < 5; omega) S50000x5x128 _ rfl rfl 24 rfl
      (ix3 e ⟨n.val - 24, by omega⟩ c')
      (fun b hb => match b, hb with
        | ⟨0, _⟩, _ => rfl
        | ⟨1, _⟩, hb => absurd (Fin.ext rfl) hb
        | ⟨2, _⟩, _ => rfl)
      (by show 24 + (n.val - 24) = n.val; omega)).trans ?_
    refine (piece4 x0 x4 e ⟨n.val - 24, by omega⟩ c').trans (Cert.Spec.flat_neg2 x0 x1 x2 x3 x4 e _ _ ?_).symm
    show n.val * 128 + c'.val = 3072 + ((n.val - 24) * 128 + c'.val); omega

end Cert.ReferenceIdeal.RefValue

end
-- ==== Proof.lean ====
/-
  The kernel computes, for each of 50000 edges, three dense linear maps of the edge's 29 components of 128 numbers:
  the first seven components (896 numbers) through `W0` with a bias, and two real/imaginary pairs of slabs (768 and 640
  numbers each) through `W1` and `W2`, recombined as `pos = real·Wᵀ[:, :D] − imag·Wᵀ[:, D:]` and
  `neg = imag·Wᵀ[:, :D] + real·Wᵀ[:, D:]`. The kernel tiles the edges in 125 blocks of 400, works on transposed copies
  of the weights and on operands narrowed to a shorter float format; the reference is the same arithmetic written with
  one batched contraction per pair. Over the extended reals a change of float format is the identity, and a matrix
  product into a zero accumulator and the host's contraction are both the plain sum over the contracted index: so both
  programs end with the result at ONE function of the five arguments, `Cert.Spec.result` (Proof/Spec.lean), whose
  entry (e, n, c) is column 128 n + c of the edge's row of five blocks. The two sides are equal sums of equal products,
  term by term: no law that needs finiteness is used, and the precondition is not opened.

    Proof/Spec.lean     the function;
    Proof/Payload.lean  what one grid step stores, entry by entry, from the blocks it loads;
    Proof/HostIn.lean   the arrays the call is given, as entries of the arguments (slices, reshapes, transposes);
    Proof/Block.lean    the call's array after all 125 steps, the reshape after it, and the kernel program's run;
    Proof/RefValue.lean the reference's result is the same function;
    Proof/LibPlainDot.lean  a plain [M,K]·[K,N] product at an entry is the sum over k of l(p,k)·r(k,q).

  The three frames are the generated frame runs (the reference's is its run with the result dropped); the ideal pass
  rewrote nothing, so `preserves` is `True`.
-/
import proofs.«133903_j42305427866205_1_alg».proof.Defs
import proofs.«133903_j42305427866205_1_alg».proof.Proof.Gen.Kernel
import proofs.«133903_j42305427866205_1_alg».proof.Proof.Gen.Kernel.Frame
import proofs.«133903_j42305427866205_1_alg».proof.Proof.Gen.KernelIdeal
import proofs.«133903_j42305427866205_1_alg».proof.Proof.Gen.KernelIdeal.Frame
import proofs.«133903_j42305427866205_1_alg».proof.Proof.Gen.ReferenceIdeal
import proofs.«133903_j42305427866205_1_alg».proof.Proof.Gen.Pre_finite_inputs
import proofs.«133903_j42305427866205_1_alg».proof.Proof.Gen.ReferenceIdeal.Run
import proofs.«133903_j42305427866205_1_alg».proof.Proof.Gen.ReferenceIdeal.Read
import proofs.«133903_j42305427866205_1_alg».proof.Proof.Block
import proofs.«133903_j42305427866205_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the five arguments, both idealized programs end with their results at the
    specification's `result` of those arguments. -/
theorem algebraic : Cert.algebraic_KernelIdeal_ReferenceIdeal := by
  intro m ρ m' ρ' _ hagree
  refine ⟨fun c => Cert.Spec.result (Cert.KernelIdeal.Block.aX m c) (Cert.KernelIdeal.Block.aW0 m c)
    (Cert.KernelIdeal.Block.aB0 m c) (Cert.KernelIdeal.Block.aW1 m c) (Cert.KernelIdeal.Block.aW2 m c),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
